-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_arg1 : IVec S2x600000 32) (main_v50 : IVec S_ 1) : IVec S_ 1 :=
  let main_v51 : IVec S1x600000 32 := (extractStridedSlice S1x600000 ![0, 0] · slices_S2x600000_S1x600000_0_0) main_arg1
  let main_v52 : IVec S600000 32 := shapeCast S600000 main_v51 shapeCasts_S1x600000_S600000
  let main_c_19 : IVec S_ 32 := constantI S_ 32 0#32
  let main_v53 : IVec S600000 32 := broadcastInDim S600000 ![] bcast_S_S600000 main_c_19
  let main_v54 : IVec S600000 1 := cmpi .sge main_v52 main_v53
  let main_v55 : IVec S1x600000 32 := (extractStridedSlice S1x600000 ![0, 0] · slices_S2x600000_S1x600000_0_0) main_arg1
  let main_v56 : IVec S600000 32 := shapeCast S600000 main_v55 shapeCasts_S1x600000_S600000
  let main_c_20 : IVec S_ 32 := constantI S_ 32 50000#32
  let main_v57 : IVec S600000 32 := broadcastInDim S600000 ![] bcast_S_S600000 main_c_20
  let main_v58 : IVec S600000 1 := cmpi .slt main_v56 main_v57
  let main_v59 : IVec S600000 1 := andi main_v54 main_v58
  let main_c_21 : IVec S_ 1 := constantI S_ 1 1#1
  let main_v60 : IVec S_ 1 := (fun x v => Host.reduce IntOp.andi x v reducesTo_S600000_S_d0 h_S_) main_v59 main_c_21
  let main_v61 : IVec S_ 1 := andi main_v50 main_v60
  main_v61

def fn_part2 {F : FTy → Type} [FloatOps F] (main_arg0 : IVec S50000 32) (main_arg1 : IVec S2x600000 32) (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg0 main_v44
  let main_c_17 : IVec S_ 32 := constantI S_ 32 50000#32
  let main_v46 : IVec S50000 32 := broadcastInDim S50000 ![] bcast_S_S50000 main_c_17
  let main_v47 : IVec S50000 1 := cmpi .slt main_arg0 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  fn_part3 (F := F) main_arg1 main_v50

def fn_part1 {F : FTy → Type} [FloatOps F] (main_arg0 : IVec S50000 32) (main_arg1 : IVec S2x600000 32) (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg9 main_arg10 main_v33

def fn {F : FTy → Type} [FloatOps F] (main_arg0 : IVec S50000 32) (main_arg1 : IVec S2x600000 32) (main_arg2 : FVec F S50000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg6 main_arg7 main_arg8 main_arg9 main_arg10 main_v13 main_v16
-- ==== Kernel.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 98
  | .vmem => 20
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S50000, .i32⟩
  | .hbm, ⟨17, _⟩ => ⟨S50000, .i1⟩
  | .hbm, ⟨18, _⟩ => ⟨S_, .i32⟩
  | .hbm, ⟨19, _⟩ => ⟨S50000, .i32⟩
  | .hbm, ⟨20, _⟩ => ⟨S50000, .i32⟩
  | .hbm, ⟨21, _⟩ => ⟨S50000, .i32⟩
  | .hbm, ⟨22, _⟩ => ⟨S50000x1, .i32⟩
  | .hbm, ⟨23, _⟩ => ⟨S1, .i32⟩
  | .hbm, ⟨24, _⟩ => ⟨S_, .i32⟩
  | .hbm, ⟨25, _⟩ => ⟨S50000x1, .i32⟩
  | .hbm, ⟨26, _⟩ => ⟨S50000x1, .i1⟩
  | .hbm, ⟨27, _⟩ => ⟨S1x1, .i32⟩
  | .hbm, ⟨28, _⟩ => ⟨S50000x1, .i32⟩
  | .hbm, ⟨29, _⟩ => ⟨S50000x1, .i1⟩
  | .hbm, ⟨30, _⟩ => ⟨S50000x1, .i1⟩
  | .hbm, ⟨31, _⟩ => ⟨S_, .i1⟩
  | .hbm, ⟨32, _⟩ => ⟨S50000, .i1⟩
  | .hbm, ⟨33, _⟩ => ⟨S50000x128, .f32⟩
  | .hbm, ⟨34, _⟩ => ⟨S50000x128, .i1⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S1, .i32⟩
  | .hbm, ⟨47, _⟩ => ⟨S_, .i32⟩
  | .hbm, ⟨48, _⟩ => ⟨S600000x1, .i32⟩
  | .hbm, ⟨49, _⟩ => ⟨S600000x1, .i1⟩
  | .hbm, ⟨50, _⟩ => ⟨S1x1, .i32⟩
  | .hbm, ⟨51, _⟩ => ⟨S600000x1, .i32⟩
  | .hbm, ⟨52, _⟩ => ⟨S600000x1, .i1⟩
  | .hbm, ⟨53, _⟩ => ⟨S600000x1, .i1⟩
  | .hbm, ⟨54, _⟩ => ⟨S_, .i1⟩
  | .hbm, ⟨55, _⟩ => ⟨S600000, .i1⟩
  | .hbm, ⟨56, _⟩ => ⟨S600000x128, .f32⟩
  | .hbm, ⟨57, _⟩ => ⟨S600000x128, .i1⟩
  | .hbm, ⟨58, _⟩ => ⟨S_, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S1, .i32⟩
  | .hbm, ⟨77, _⟩ => ⟨S_, .i32⟩
  | .hbm, ⟨78, _⟩ => ⟨S600000x1, .i32⟩
  | .hbm, ⟨79, _⟩ => ⟨S600000x1, .i1⟩
  | .hbm, ⟨80, _⟩ => ⟨S1x1, .i32⟩
  | .hbm, ⟨81, _⟩ => ⟨S600000x1, .i32⟩
  | .hbm, ⟨82, _⟩ => ⟨S600000x1, .i1⟩
  | .hbm, ⟨83, _⟩ => ⟨S600000x1, .i1⟩
  | .hbm, ⟨84, _⟩ => ⟨S_, .i1⟩
  | .hbm, ⟨85, _⟩ => ⟨S600000, .i1⟩
  | .hbm, ⟨86, _⟩ => ⟨S600000x128, .f32⟩
  | .hbm, ⟨87, _⟩ => ⟨S600000x128, .i1⟩
  | .hbm, ⟨88, _⟩ => ⟨S_, .f32⟩
  | .hbm, ⟨89, _⟩ => ⟨S600000x128, .f32⟩
  | .hbm, ⟨90, _⟩ => ⟨S600000x128, .f32⟩
  | .hbm, ⟨91, _⟩ => ⟨S_, .f32⟩
  | .hbm, ⟨92, _⟩ => ⟨S50000x128, .f32⟩
  | .hbm, ⟨93, _⟩ => ⟨S600000x1, .i32⟩
  | .hbm, ⟨94, _⟩ => ⟨S50000x128, .f32⟩
  | .hbm, ⟨95, _⟩ => ⟨S1x128, .f32⟩
  | .hbm, ⟨96, _⟩ => ⟨S1x64, .f32⟩
  | .hbm, ⟨97, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_cst : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v12 : Ref sig .tc := ⟨.hbm, 90, rfl⟩
abbrev main_cst_0 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v8) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000x1 : Shape := ⟨2, ![50000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S1x600000, .i32⟩
  | .hbm, ⟨21, _⟩ => ⟨S600000, .i32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S1x600000, .i32⟩
  | .hbm, ⟨32, _⟩ => ⟨S600000, .i32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S1x600000, .i32⟩
  | .hbm, ⟨53, _⟩ => ⟨S600000, .i32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S1x600000, .i32⟩
  | .hbm, ⟨64, _⟩ => ⟨S600000, .i32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_3 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call2_cst : Ref sig .tc := ⟨.hbm, 74, rfl⟩
abbrev main_call2_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.Spec.lean ====
/-
  One layer of a graph isomorphism network, dense part, on the extended reals.

  For node r the layer takes the aggregated neighbour features a(r, ·) and the node's own features x(r, ·), adds them,
  applies a first affine map and the rectifier, and then a second affine map:

      hidden(r, k) = max( Σ_l (a(r,l) + x(r,l)) · Wa(l,k) + ba(k), 0 )
      out(r, q)    = post( Σ_k hidden(r,k) · Wb(k,q) + bb(q) )

  with post the rectifier again (first layer) or the identity (second layer). The entry (r, q) depends on row r of
  a and x only, so the same formula describes a block of consecutive rows and the whole array.

  Also here: index facts that do not depend on any program — a mask whose every word is 1 selects its first
  branch; a conjunction fold over words that are all 1 is 1; signed 32-bit words in [0, N) pass the range test
  0 ≤ w ≤ N − 1 and are left alone by "add N where negative".
-/
import proofs.«418175_j48541720379897_1_alg».proof.Proof.LibPlainRows
import Idealize.ShloMosaic.Lib.ValueIdx
import Idealize.ShloMosaic.Lib.Pipeline.Value
import Idealize.ShloMosaic.Lib.ReduceAll

noncomputable section

open scoped BigOperators

namespace Cert.Gin

open Idealize.ShloMosaic Idealize.ShloMosaic.ValueIdx

/-! ## The layer -/

/-- The hidden activation of node r, unit k. -/
def hiddenAt {R : Nat} (agg x : FVec Ideal ⟨2, ![R, 128]⟩ .f32) (Wa : FVec Ideal ⟨2, ![128, 128]⟩ .f32)
    (ba : Fin 128 → EReal) (r : Fin R) (k : Fin 128) : EReal :=
  max ((∑ l : Fin 128, (agg (ix2 r l) + x (ix2 r l)) * Wa (ix2 l k)) + ba k) 0

/-- The layer's output array, entry by entry. -/
def layerArr {R C : Nat} (post : EReal → EReal) (agg x : FVec Ideal ⟨2, ![R, 128]⟩ .f32)
    (Wa : FVec Ideal ⟨2, ![128, 128]⟩ .f32) (ba : Fin 128 → EReal) (Wb : FVec Ideal ⟨2, ![128, C]⟩ .f32)
    (bb : Fin C → EReal) : FVec Ideal ⟨2, ![R, C]⟩ .f32 :=
  fun j => post ((∑ k : Fin 128, hiddenAt agg x Wa ba (j 0 : Fin R) k * Wb (ix2 k (j 1 : Fin C))) + bb (j 1 : Fin C))

theorem layerArr_apply {R C : Nat} (post : EReal → EReal) (agg x : FVec Ideal ⟨2, ![R, 128]⟩ .f32)
    (Wa : FVec Ideal ⟨2, ![128, 128]⟩ .f32) (ba : Fin 128 → EReal) (Wb : FVec Ideal ⟨2, ![128, C]⟩ .f32)
    (bb : Fin C → EReal) (r : Fin R) (q : Fin C) :
    layerArr post agg x Wa ba Wb bb (ix2 r q)
      = post ((∑ k : Fin 128, hiddenAt agg x Wa ba r k * Wb (ix2 k q)) + bb q) := rfl

/-- The layer's entry (r, q) reads row r of its two feature arrays, the weights and the biases, and nothing else: two
    families of operands that agree there give the same entry. -/
theorem layerArr_congr {R R' C : Nat} (post : EReal → EReal) (agg x : FVec Ideal ⟨2, ![R, 128]⟩ .f32)
    (agg' x' : FVec Ideal ⟨2, ![R', 128]⟩ .f32)
    (Wa Wa' : FVec Ideal ⟨2, ![128, 128]⟩ .f32) (ba ba' : Fin 128 → EReal) (Wb Wb' : FVec Ideal ⟨2, ![128, C]⟩ .f32)
    (bb bb' : Fin C → EReal) (r : Fin R) (r' : Fin R') (q : Fin C)
    (ha : ∀ l : Fin 128, agg (ix2 r l) = agg' (ix2 r' l)) (hx : ∀ l : Fin 128, x (ix2 r l) = x' (ix2 r' l))
    (hWa : ∀ l k : Fin 128, Wa (ix2 l k) = Wa' (ix2 l k)) (hba : ∀ k : Fin 128, ba k = ba' k)
    (hWb : ∀ (k : Fin 128) (q : Fin C), Wb (ix2 k q) = Wb' (ix2 k q)) (hbb : ∀ q : Fin C, bb q = bb' q) :
    layerArr post agg x Wa ba Wb bb (ix2 r q) = layerArr post agg' x' Wa' ba' Wb' bb' (ix2 r' q) := by
  rw [layerArr_apply, layerArr_apply, hbb q]
  refine congrArg post (congrArg (· + bb' q) (Finset.sum_congr rfl fun k _ => ?_))
  unfold hiddenAt
  rw [hWb k q, hba k]
  refine congrArg (· * Wb' (ix2 k q)) (congrArg (fun s => max (s + ba' k) 0) (Finset.sum_congr rfl fun l _ => ?_))
  rw [ha l, hx l, hWa l k]

/-- A one-row matrix laid down every row of a block, read at (p, q): the row's entry q. -/
theorem rowBlock_apply {R n : Nat} (v : FVec Ideal ⟨2, ![1, n]⟩ .f32)
    (hb : (⟨2, ![1, n]⟩ : Shape).Broadcasts ⟨2, ![R, n]⟩) (p : Fin R) (q : Fin n) :
    broadcastTo ⟨2, ![R, n]⟩ v hb (ix2 p q) = v (ix2 (0 : Fin 1) q) :=
  broadcastTo_apply v hb (ix2 p q) (ix2 (0 : Fin 1) q) (by
    intro a
    match a with
    | ⟨0, _⟩ => rfl
    | ⟨1, _⟩ =>
      show q.val = if n = 1 then 0 else q.val
      split
      · have := q.isLt; omega
      · rfl)

/-- THE BODY OF THE KERNEL ON ONE BLOCK: the two products accumulated into zero, the two bias rows, the rectifier
    between them, the operands narrowed before each product (a change of format is the identity on the extended
    reals) — entry by entry the layer's formula on the block's rows, without the closing rectifier. -/
theorem dense_block {R C : Nat}
    (d1 : DotDims ⟨2, ![R, 128]⟩ ⟨2, ![128, 128]⟩ ⟨2, ![R, 128]⟩) (hd1 : d1 = DotDims.plain R 128 128)
    (d2 : DotDims ⟨2, ![R, 128]⟩ ⟨2, ![128, C]⟩ ⟨2, ![R, C]⟩) (hd2 : d2 = DotDims.plain R 128 C)
    (hb1 : (⟨2, ![1, 128]⟩ : Shape).Broadcasts ⟨2, ![R, 128]⟩) (hb2 : (⟨2, ![1, C]⟩ : Shape).Broadcasts ⟨2, ![R, C]⟩)
    (h16 : FTy.bf16.bits < FTy.f32.bits)
    (v0 v2 : FVec Ideal ⟨2, ![R, 128]⟩ .f32) (v6 : FVec Ideal ⟨2, ![128, 128]⟩ .f32) (v9 : FVec Ideal ⟨2, ![1, 128]⟩ .f32)
    (v16 : FVec Ideal ⟨2, ![128, C]⟩ .f32) (v19 : FVec Ideal ⟨2, ![1, C]⟩ .f32) :
    addf (matmul d2 none
        (truncf .bf16 (maximumf (addf (matmul d1 none (truncf .bf16 (addf v0 v2) h16) (truncf .bf16 v6 h16)
            (constant ⟨2, ![R, 128]⟩ .f32 0x00000000#32)) (broadcastTo ⟨2, ![R, 128]⟩ v9 hb1))
          (broadcast ⟨2, ![R, 128]⟩ (Scalar.ofBits .f32 0x00000000#32))) h16)
        (truncf .bf16 v16 h16) (constant ⟨2, ![R, C]⟩ .f32 0x00000000#32)) (broadcastTo ⟨2, ![R, C]⟩ v19 hb2)
      = layerArr id v0 v2 v6 (fun k => v9 (ix2 (0 : Fin 1) k)) v16 (fun q => v19 (ix2 (0 : Fin 1) q)) := by
  funext j
  obtain ⟨p, q, rfl⟩ : ∃ (p : Fin R) (q : Fin C), j = ix2 p q := ⟨j 0, j 1, eq_ix2 j⟩
  rw [layerArr_apply, addf_apply, PlainRows.matmul_zero_rows_apply d2 hd2, rowBlock_apply]
  refine congrArg (· + v19 (ix2 (0 : Fin 1) q)) (Finset.sum_congr rfl fun k _ => ?_)
  rw [truncf_apply, truncf_apply, maximumf_apply, addf_apply, PlainRows.matmul_zero_rows_apply d1 hd1, rowBlock_apply,
    broadcast_apply]
  unfold hiddenAt
  refine congrArg (· * v16 (ix2 k q)) ?_
  show max _ (Ideal.ofBits .f32 0x00000000#32) = _
  rw [Ideal.ofBits_zero_f32]
  refine congrArg (fun s => max (s + v9 (ix2 (0 : Fin 1) k)) 0) (Finset.sum_congr rfl fun l _ => ?_)
  rw [truncf_apply, truncf_apply, addf_apply]

/-- The same with the closing rectifier. -/
theorem dense_block_relu {R C : Nat}
    (d1 : DotDims ⟨2, ![R, 128]⟩ ⟨2, ![128, 128]⟩ ⟨2, ![R, 128]⟩) (hd1 : d1 = DotDims.plain R 128 128)
    (d2 : DotDims ⟨2, ![R, 128]⟩ ⟨2, ![128, C]⟩ ⟨2, ![R, C]⟩) (hd2 : d2 = DotDims.plain R 128 C)
    (hb1 : (⟨2, ![1, 128]⟩ : Shape).Broadcasts ⟨2, ![R, 128]⟩) (hb2 : (⟨2, ![1, C]⟩ : Shape).Broadcasts ⟨2, ![R, C]⟩)
    (h16 : FTy.bf16.bits < FTy.f32.bits)
    (v0 v2 : FVec Ideal ⟨2, ![R, 128]⟩ .f32) (v6 : FVec Ideal ⟨2, ![128, 128]⟩ .f32) (v9 : FVec Ideal ⟨2, ![1, 128]⟩ .f32)
    (v16 : FVec Ideal ⟨2, ![128, C]⟩ .f32) (v19 : FVec Ideal ⟨2, ![1, C]⟩ .f32) :
    maximumf (addf (matmul d2 none
        (truncf .bf16 (maximumf (addf (matmul d1 none (truncf .bf16 (addf v0 v2) h16) (truncf .bf16 v6 h16)
            (constant ⟨2, ![R, 128]⟩ .f32 0x00000000#32)) (broadcastTo ⟨2, ![R, 128]⟩ v9 hb1))
          (broadcast ⟨2, ![R, 128]⟩ (Scalar.ofBits .f32 0x00000000#32))) h16)
        (truncf .bf16 v16 h16) (constant ⟨2, ![R, C]⟩ .f32 0x00000000#32)) (broadcastTo ⟨2, ![R, C]⟩ v19 hb2))
        (broadcast ⟨2, ![R, C]⟩ (Scalar.ofBits .f32 0x00000000#32))
      = layerArr (fun v => max v 0) v0 v2 v6 (fun k => v9 (ix2 (0 : Fin 1) k)) v16 (fun q => v19 (ix2 (0 : Fin 1) q)) := by
  funext j
  rw [maximumf_apply, dense_block d1 hd1 d2 hd2 hb1 hb2 h16, broadcast_apply]
  show max _ (Ideal.ofBits .f32 0x00000000#32) = _
  rw [Ideal.ofBits_zero_f32]
  rfl

/-! ## The whole network as one function of its parts -/

/-- Two layers over a graph: look the node features up, then twice aggregate each node's in-neighbours' features and
    apply the dense layer to the aggregate and the node's own features. The two look-ups and the aggregation are
    parameters: both programs apply the same three, and nothing here opens them. -/
def ginOut (lookN : FVec Ideal ⟨2, ![50000, 128]⟩ .f32 → IVec ⟨1, ![50000]⟩ 32 → FVec Ideal ⟨2, ![50000, 128]⟩ .f32)
    (lookE : FVec Ideal ⟨2, ![50000, 128]⟩ .f32 → IVec ⟨1, ![600000]⟩ 32 → FVec Ideal ⟨2, ![600000, 128]⟩ .f32)
    (agg : IVec ⟨1, ![600000]⟩ 32 → FVec Ideal ⟨2, ![600000, 128]⟩ .f32 → FVec Ideal ⟨2, ![50000, 128]⟩ .f32)
    (xi : IVec ⟨1, ![50000]⟩ 32) (src dst : IVec ⟨1, ![600000]⟩ 32) (emb : FVec Ideal ⟨2, ![50000, 128]⟩ .f32)
    (W1a : FVec Ideal ⟨2, ![128, 128]⟩ .f32) (b1a : Fin 128 → EReal) (W1b : FVec Ideal ⟨2, ![128, 128]⟩ .f32) (b1b : Fin 128 → EReal)
    (W2a : FVec Ideal ⟨2, ![128, 128]⟩ .f32) (b2a : Fin 128 → EReal) (W2b : FVec Ideal ⟨2, ![128, 64]⟩ .f32) (b2b : Fin 64 → EReal) :
    FVec Ideal ⟨2, ![50000, 64]⟩ .f32 :=
  layerArr id
    (agg dst (lookE (layerArr (fun v => max v 0) (agg dst (lookE (lookN emb xi) src)) (lookN emb xi) W1a b1a W1b b1b) src))
    (layerArr (fun v => max v 0) (agg dst (lookE (lookN emb xi) src)) (lookN emb xi) W1a b1a W1b b1b) W2a b2a W2b b2b

/-- A bias vector reshaped to a one-row matrix reads, at (0, k), the vector's entry k. -/
theorem rowOf_apply {n : Nat} (b : FVec Ideal ⟨1, ![n]⟩ .f32) (h : (⟨1, ![n]⟩ : Shape).ShapeCasts ⟨2, ![1, n]⟩) (k : Fin n) :
    shapeCast ⟨2, ![1, n]⟩ b h (ix2 (0 : Fin 1) k) = b (ix1 k) :=
  shapeCast_apply b h (ix2 (0 : Fin 1) k) (ix1 k) (by
    rw [Shape.rowMajor_val_two, Shape.rowMajor_val_one]; show k.val = 0 * n + k.val; omega)

/-! ## Masks and words -/

/-- A mask whose every word is 1 selects its first branch everywhere. -/
theorem select_of_ones {s : Shape} {α : Type} (c : IVec s 1) (a b : s.Idx → α) (h : ∀ i, c i = 1#1) :
    select c a b = a :=
  funext fun i => by rw [select_apply, h i, select_one]

/-- A conjunction fold from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_ones f l fun n hn => h n (List.mem_cons_of_mem _ hn)

/-- A reduction by "and" from the constant 1 of an array whose every word is 1 is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ fun n _ => hx n

/-- A signed word in [0, N): not negative, so "add N where negative" leaves it alone. -/
theorem wrap_of_inRange (w : BitVec 32) (N : BitVec 32) (h0 : (0 : Int) ≤ w.toInt) :
    Scalar.select (IntOp.cmpi .slt w 0#32) (IntOp.addi w N) w = w := by
  have hne : ¬ IntOp.cmpi .slt w 0#32 = 1#1 := by
    rw [IntOp.cmpi_slt, show (0#32 : BitVec 32).toInt = 0 from by decide]; omega
  rw [eq_zero_of_ne_one hne, select_zero]

/-- The range test "0 ≤ w ≤ N1" of an index array, folded by "and" from 1, is 1 everywhere when every index passes. -/
theorem rangeMask_ones {s t u : Shape} {axes : List (Fin s.rank)} (I B0 B1 : IVec s 32) (init : IVec u 1)
    (hr : s.ReducesTo axes t) (hu : 0 < u.numel) (N1 : BitVec 32)
    (hI : ∀ i, (0 : Int) ≤ (I i).toInt ∧ (I i).toInt ≤ N1.toInt) (hB0 : ∀ i, B0 i = 0#32) (hB1 : ∀ i, B1 i = N1)
    (hinit : ∀ i, init i = 1#1) (j : t.Idx) :
    Host.reduce IntOp.andi (andi (cmpi .sge I B0) (cmpi .sle I B1)) init hr hu j = 1#1 := by
  refine reduce_andi_ones _ _ hr hu (fun i => ?_) hinit j
  show IntOp.andi (IntOp.cmpi .sge (I i) (B0 i)) (IntOp.cmpi .sle (I i) (B1 i)) = 1#1
  rw [hB0, hB1, IntOp.andi_eq_one, IntOp.cmpi_sge, IntOp.cmpi_sle, show (0#32 : BitVec 32).toInt = 0 from by decide]
  exact hI i

/-- An index array of signed words in [0, N) is left alone by "add N where negative". -/
theorem wrapIdx_of_inRange {s : Shape} (idx Z Nn : IVec s 32) (hZ : ∀ i, Z i = 0#32)
    (h : ∀ i, (0 : Int) ≤ (idx i).toInt) :
    select (cmpi .slt idx Z) (addi idx Nn) idx = idx := by
  funext i
  show Scalar.select (IntOp.cmpi .slt (idx i) (Z i)) (IntOp.addi (idx i) (Nn i)) (idx i) = idx i
  rw [hZ]
  exact wrap_of_inRange (idx i) (Nn i) (h i)

/-- Every entry of a broadcast is an entry of its operand: what holds of all the operand's entries holds of the
    broadcast's. -/
theorem bcast_forall {s t : Shape} {α : Type} (dims : Fin s.rank → Fin t.rank) (hb : s.BroadcastsInDim t dims)
    (x : s.Idx → α) (P : α → Prop) (h : ∀ k, P (x k)) (i : t.Idx) : P (broadcastInDim t dims hb x i) := by
  unfold broadcastInDim
  exact h _

end Cert.Gin

end
-- ==== Proof.KRegion0.lean ====
/-
  The first rectified layer, as the first pallas_call computes it.

  The call walks the 50000 nodes in 25 blocks of 2000 rows. At block t it is given rows 2000·t … 2000·t + 1999 of the
  aggregated features and of the node features, and the whole of both weight matrices and both bias rows; it writes
  rows 2000·t … 2000·t + 1999 of the result. An output entry depends on its own row of the two feature arrays only, so
  every block of the result is the corresponding block of ONE array: the layer's formula applied to the whole arrays
  the call was entered with. The 25 blocks tile the 50000 rows, so the result array ends holding that array.
  Everything is stated for ANY contents V of the buffers at the call's entry.
-/
import proofs.«418175_j48541720379897_1_alg».proof.Proof.Gen.KernelIdeal.Frame
import proofs.«418175_j48541720379897_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer0

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the layer's formula on the block's rows. -/
theorem pay_eq (v0 v2 : Vec Ideal S2000x128 .f32) (v6 : Vec Ideal S128x128 .f32) (v9 : Vec Ideal S1x128 .f32)
    (v16 : Vec Ideal S128x128 .f32) (v19 : Vec Ideal S1x128 .f32) :
    k0_pay1 v0 v2 v6 v9 v16 v19
      = layerArr (fun v => max v 0) v0 v2 v6 (fun k => v9 (ix2 (0 : Fin 1) k)) v16 (fun q => v19 (ix2 (0 : Fin 1) q)) := by
  unfold k0_pay1
  simp only [shapeCast_self]
  exact dense_block_relu _ rfl _ rfl _ _ _ v0 v2 v6 v9 v16 v19

/-- Where each window's block sits at point t: the three row-blocked windows at block row t, the four whole-array
    windows at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array the call's result buffer ends holding: the layer's formula on the arrays the call was entered with. -/
abbrev G (c : Dev nD) : S50000x128.Idx → Elt Ideal .f32 :=
  layerArr (fun v => max v 0) (V c (Pipeline.arrRef spec0 0)) (V c (Pipeline.arrRef spec0 1)) (V c (Pipeline.arrRef spec0 2))
    (fun k => (V c (Pipeline.arrRef spec0 3) : S1x128.Idx → Elt Ideal .f32) (ix2 (0 : Fin 1) k)) (V c (Pipeline.arrRef spec0 4))
    (fun q => (V c (Pipeline.arrRef spec0 5) : S1x128.Idx → Elt Ideal .f32) (ix2 (0 : Fin 1) q))

/-- A row-blocked input's block at point t, row p, is row 2000·t + p of its array. -/
theorem blk0_apply (c : Dev nD) (t : Fin cfg0.N) (p : Fin 2000) (l : Fin 128) (r : Fin 50000) (hr : r.val = 2000 * t.val + p.val) :
    (iblk0 V c 0 t : Vec Ideal S2000x128 .f32) (ix2 p l) = (V c (Pipeline.arrRef spec0 0) : S50000x128.Idx → Elt Ideal .f32) (ix2 r l) := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * l.val = l.val; rw [e1]; omega

/-- The other row-blocked input, the node features: the same. -/
theorem blk1_apply (c : Dev nD) (t : Fin cfg0.N) (p : Fin 2000) (l : Fin 128) (r : Fin 50000) (hr : r.val = 2000 * t.val + p.val) :
    (iblk0 V c 1 t : Vec Ideal S2000x128 .f32) (ix2 p l) = (V c (Pipeline.arrRef spec0 1) : S50000x128.Idx → Elt Ideal .f32) (ix2 r l) := by
  obtain ⟨-, -, e0, e1, -⟩ := idx_facts t
  unfold iblk0
  rw [View.read_apply]
  refine congrArg (V c (Pipeline.arrRef spec0 1)) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * l.val = l.val; rw [e1]; omega

/-- The first weight matrix is handed over whole at every point. -/
theorem blk2_apply (c : Dev nD) (t : Fin cfg0.N) (l k : Fin 128) :
    (iblk0 V c 2 t : Vec Ideal S128x128 .f32) (ix2 l k) = (V c (Pipeline.arrRef spec0 2) : S128x128.Idx → Elt Ideal .f32) (ix2 l k) := by
  obtain ⟨-, -, -, -, e0, e1, -⟩ := idx_facts t
  unfold iblk0
  rw [View.read_apply]
  refine congrArg (V c (Pipeline.arrRef spec0 2)) (funext fun a => Fin.ext ?_)
  match a with
  | ⟨0, _⟩ => show win0_2.index t (0 : Fin 2) * 128 + 1 * l.val = l.val; rw [e0]; omega
  | ⟨1, _⟩ => show win0_2.index t (1 : Fin 2) * 128 + 1 * k.val = k.val; rw [e1]; omega

/-- The first bias row, whole. -/
theorem blk3_apply (c : Dev nD) (t : Fin cfg0.N) (k : Fin 128) :
    (iblk0 V c 3 t : Vec Ideal S1x128 .f32) (ix2 (0 : Fin 1) k) = (V c (Pipeline.arrRef spec0 3) : S1x128.Idx → Elt Ideal .f32) (ix2 (0 : Fin 1) k) := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ => show win0_3.index t (0 : Fin 2) * 1 + 1 * 0 = 0; rw [e0]
  | ⟨1, _⟩ => show win0_3.index t (1 : Fin 2) * 128 + 1 * k.val = k.val; rw [e1]; omega

/-- The second weight matrix, whole. -/
theorem blk4_apply (c : Dev nD) (t : Fin cfg0.N) (k q : Fin 128) :
    (iblk0 V c 4 t : Vec Ideal S128x128 .f32) (ix2 k q) = (V c (Pipeline.arrRef spec0 4) : S128x128.Idx → Elt Ideal .f32) (ix2 k q) := by
  obtain ⟨-, -, -, -, -, -, -, -, e0, e1, -⟩ := idx_facts t
  unfold iblk0
  rw [View.read_apply]
  refine congrArg (V c (Pipeline.arrRef spec0 4)) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The second bias row, whole. -/
theorem blk5_apply (c : Dev nD) (t : Fin cfg0.N) (q : Fin 128) :
    (iblk0 V c 5 t : Vec Ideal S1x128 .f32) (ix2 (0 : Fin 1) q) = (V c (Pipeline.arrRef spec0 5) : S1x128.Idx → Elt Ideal .f32) (ix2 (0 : Fin 1) q) := by
  obtain ⟨-, -, -, -, -, -, -, -, -, -, e0, e1, -⟩ := idx_facts t
  unfold iblk0
  rw [View.read_apply]
  refine congrArg (V c (Pipeline.arrRef spec0 5)) (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- WHAT POINT t WRITES BACK is block t of the layer's formula on the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  rw [pay_eq]
  funext y
  obtain ⟨p, q, rfl⟩ : ∃ (p : Fin 2000) (q : Fin 128), y = ix2 p q := ⟨y 0, y 1, eq_ix2 y⟩
  have ht : t.val < 25 := Nat.lt_of_lt_of_eq t.isLt N_0
  obtain ⟨-, -, -, -, -, -, -, -, -, -, -, -, e0, e1⟩ := idx_facts t
  have hp := p.isLt
  have hemb : ((cfg0.win 6).blk t).view.emb (ix2 p q) = ix2 (⟨2000 * t.val + p.val, by omega⟩ : Fin 50000) q :=
    funext fun a => Fin.ext (by
      match a with
      | ⟨0, _⟩ => show win0_6.index t (0 : Fin 2) * 2000 + 1 * p.val = 2000 * t.val + p.val; rw [e0]; omega
      | ⟨1, _⟩ => show win0_6.index t (1 : Fin 2) * 128 + 1 * q.val = q.val; rw [e1]; omega)
  show layerArr (fun v => max v 0) (iblk0 V c 0 t) (iblk0 V c 1 t) (iblk0 V c 2 t) (fun k => iblk0 V c 3 t (ix2 (0 : Fin 1) k))
      (iblk0 V c 4 t) (fun q => iblk0 V c 5 t (ix2 (0 : Fin 1) q)) (ix2 p q)
    = G V c (((cfg0.win 6).blk t).view.emb (ix2 p q))
  rw [hemb]
  exact layerArr_congr _ _ _ _ _ _ _ _ _ _ _ _ _ p ⟨2000 * t.val + p.val, by omega⟩ q
    (fun l => blk0_apply V c t p l _ rfl) (fun l => blk1_apply V c t p l _ rfl)
    (fun l k => blk2_apply V c t l k) (fun k => blk3_apply V c t k)
    (fun k q => blk4_apply V c t k q) (fun q => blk5_apply V c t q)

/-- The 25 blocks tile the result array: row r lies in block r / 2000. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, -, -, e0, e1⟩ := idx_facts t
  have ht : t.val = (i 0).val / 2000 := rfl
  refine ⟨t, flush0_6 t, ?_⟩
  show i ∈ ((View.whole main_v11).slice (win0_6.rect t)).set
  rw [View.set_slice_whole, Rect.mem_set_unit]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 128 ≤ (i 1).val ∧ (i 1).val < win0_6.index t (1 : Fin 2) * 128 + 128; rw [e1]; omega

/-- THE RESULT ARRAY after the call: the layer's formula on the arrays the call was entered with. -/
theorem final (c : Dev nD) : (dat0 V c).arrAt 6 cfg0.N = G V c :=
  (dat0 V c).arrAt_eq_of_cover 6 (G V c) (fun t _ => flushed_eq V c t) (covered)

end Cert.KernelIdeal.Layer0

end
-- ==== Proof.KRegion1.lean ====
/-
  The second layer, as the second pallas_call computes it: the first call's text with the second call's names and
  sizes. The call walks the 50000 nodes in 25 blocks of 2000 rows; block t of the result is block t of ONE array, the
  layer's formula (without a closing rectifier, 64 output columns) on the whole arrays the call was entered with, and
  the 25 blocks tile the result.
-/
import proofs.«418175_j48541720379897_1_alg».proof.Proof.Gen.KernelIdeal.Frame
import proofs.«418175_j48541720379897_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer1

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the layer's formula on the block's rows. -/
theorem pay_eq (v0 v2 : Vec Ideal S2000x128 .f32) (v6 : Vec Ideal S128x128 .f32) (v9 : Vec Ideal S1x128 .f32)
    (v16 : Vec Ideal S128x64 .f32) (v19 : Vec Ideal S1x64 .f32) :
    k1_pay1 v0 v2 v6 v9 v16 v19
      = layerArr id v0 v2 v6 (fun k => v9 (ix2 (0 : Fin 1) k)) v16 (fun q => v19 (ix2 (0 : Fin 1) q)) := by
  unfold k1_pay1
  simp only [shapeCast_self]
  exact dense_block _ rfl _ rfl _ _ _ v0 v2 v6 v9 v16 v19

/-- Where each window's block sits at point t: the three row-blocked windows at block row t, the four whole-array
    windows at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array the call's result buffer ends holding: the layer's formula on the arrays the call was entered with. -/
abbrev G (c : Dev nD) : S50000x64.Idx → Elt Ideal .f32 :=
  layerArr id (V c (Pipeline.arrRef spec1 0)) (V c (Pipeline.arrRef spec1 1)) (V c (Pipeline.arrRef spec1 2))
    (fun k => (V c (Pipeline.arrRef spec1 3) : S1x128.Idx → Elt Ideal .f32) (ix2 (0 : Fin 1) k)) (V c (Pipeline.arrRef spec1 4))
    (fun q => (V c (Pipeline.arrRef spec1 5) : S1x64.Idx → Elt Ideal .f32) (ix2 (0 : Fin 1) q))

/-- A row-blocked input's block at point t, row p, is row 2000·t + p of its array. -/
theorem blk0_apply (c : Dev nD) (t : Fin cfg1.N) (p : Fin 2000) (l : Fin 128) (r : Fin 50000) (hr : r.val = 2000 * t.val + p.val) :
    (iblk1 V c 0 t : Vec Ideal S2000x128 .f32) (ix2 p l) = (V c (Pipeline.arrRef spec1 0) : S50000x128.Idx → Elt Ideal .f32) (ix2 r l) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * l.val = l.val; rw [e1]; omega

/-- The other row-blocked input, the node features: the same. -/
theorem blk1_apply (c : Dev nD) (t : Fin cfg1.N) (p : Fin 2000) (l : Fin 128) (r : Fin 50000) (hr : r.val = 2000 * t.val + p.val) :
    (iblk1 V c 1 t : Vec Ideal S2000x128 .f32) (ix2 p l) = (V c (Pipeline.arrRef spec1 1) : S50000x128.Idx → Elt Ideal .f32) (ix2 r l) := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * l.val = l.val; rw [e1]; omega

/-- The first weight matrix is handed over whole at every point. -/
theorem blk2_apply (c : Dev nD) (t : Fin cfg1.N) (l k : Fin 128) :
    (iblk1 V c 2 t : Vec Ideal S128x128 .f32) (ix2 l k) = (V c (Pipeline.arrRef spec1 2) : S128x128.Idx → Elt Ideal .f32) (ix2 l k) := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t (0 : Fin 2) * 128 + 1 * l.val = l.val; rw [e0]; omega
  | ⟨1, _⟩ => show win1_2.index t (1 : Fin 2) * 128 + 1 * k.val = k.val; rw [e1]; omega

/-- The first bias row, whole. -/
theorem blk3_apply (c : Dev nD) (t : Fin cfg1.N) (k : Fin 128) :
    (iblk1 V c 3 t : Vec Ideal S1x128 .f32) (ix2 (0 : Fin 1) k) = (V c (Pipeline.arrRef spec1 3) : S1x128.Idx → Elt Ideal .f32) (ix2 (0 : Fin 1) k) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 1 + 1 * 0 = 0; rw [e0]
  | ⟨1, _⟩ => show win1_3.index t (1 : Fin 2) * 128 + 1 * k.val = k.val; rw [e1]; omega

/-- The second weight matrix, whole. -/
theorem blk4_apply (c : Dev nD) (t : Fin cfg1.N) (k : Fin 128) (q : Fin 64) :
    (iblk1 V c 4 t : Vec Ideal S128x64 .f32) (ix2 k q) = (V c (Pipeline.arrRef spec1 4) : S128x64.Idx → Elt Ideal .f32) (ix2 k q) := by
  obtain ⟨-, -, -, -, -, -, -, -, e0, e1, -⟩ := idx_facts t
  unfold iblk1
  rw [View.read_apply]
  refine congrArg (V c (Pipeline.arrRef spec1 4)) (funext fun a => Fin.ext ?_)
  match a with
  | ⟨0, _⟩ => show win1_4.index t (0 : Fin 2) * 128 + 1 * k.val = k.val; rw [e0]; omega
  | ⟨1, _⟩ => show win1_4.index t (1 : Fin 2) * 64 + 1 * q.val = q.val; rw [e1]; omega

/-- The second bias row, whole. -/
theorem blk5_apply (c : Dev nD) (t : Fin cfg1.N) (q : Fin 64) :
    (iblk1 V c 5 t : Vec Ideal S1x64 .f32) (ix2 (0 : Fin 1) q) = (V c (Pipeline.arrRef spec1 5) : S1x64.Idx → Elt Ideal .f32) (ix2 (0 : Fin 1) q) := by
  obtain ⟨-, -, -, -, -, -, -, -, -, -, e0, e1, -⟩ := idx_facts t
  unfold iblk1
  rw [View.read_apply]
  refine congrArg (V c (Pipeline.arrRef spec1 5)) (funext fun a => Fin.ext ?_)
  match a with
  | ⟨0, _⟩ => show win1_5.index t (0 : Fin 2) * 1 + 1 * 0 = 0; rw [e0]
  | ⟨1, _⟩ => show win1_5.index t (1 : Fin 2) * 64 + 1 * q.val = q.val; rw [e1]; omega

/-- WHAT POINT t WRITES BACK is block t of the layer's formula on the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz, View.ld_unit_zero (S := S128x64) hz, View.ld_unit_zero (S := S1x64) hz]
  rw [pay_eq]
  funext y
  obtain ⟨p, q, rfl⟩ : ∃ (p : Fin 2000) (q : Fin 64), y = ix2 p q := ⟨y 0, y 1, eq_ix2 y⟩
  have ht : t.val < 25 := Nat.lt_of_lt_of_eq t.isLt N_1
  obtain ⟨-, -, -, -, -, -, -, -, -, -, -, -, e0, e1⟩ := idx_facts t
  have hp := p.isLt
  have hemb : ((cfg1.win 6).blk t).view.emb (ix2 p q) = ix2 (⟨2000 * t.val + p.val, by omega⟩ : Fin 50000) q :=
    funext fun a => Fin.ext (by
      match a with
      | ⟨0, _⟩ => show win1_6.index t (0 : Fin 2) * 2000 + 1 * p.val = 2000 * t.val + p.val; rw [e0]; omega
      | ⟨1, _⟩ => show win1_6.index t (1 : Fin 2) * 64 + 1 * q.val = q.val; rw [e1]; omega)
  show layerArr id (iblk1 V c 0 t) (iblk1 V c 1 t) (iblk1 V c 2 t) (fun k => iblk1 V c 3 t (ix2 (0 : Fin 1) k))
      (iblk1 V c 4 t) (fun q => iblk1 V c 5 t (ix2 (0 : Fin 1) q)) (ix2 p q)
    = G V c (((cfg1.win 6).blk t).view.emb (ix2 p q))
  rw [hemb]
  exact layerArr_congr _ _ _ _ _ _ _ _ _ _ _ _ _ p ⟨2000 * t.val + p.val, by omega⟩ q
    (fun l => blk0_apply V c t p l _ rfl) (fun l => blk1_apply V c t p l _ rfl)
    (fun l k => blk2_apply V c t l k) (fun k => blk3_apply V c t k)
    (fun k q => blk4_apply V c t k q) (fun q => blk5_apply V c t q)

/-- The 25 blocks tile the result array: row r lies in block r / 2000. -/
theorem covered (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  let t : Fin cfg1.N := ⟨(i 0).val / 2000, by rw [show cfg1.N = 25 from N_1]; omega⟩
  obtain ⟨-, -, -, -, -, -, -, -, -, -, -, -, e0, e1⟩ := idx_facts t
  have ht : t.val = (i 0).val / 2000 := rfl
  refine ⟨t, flush1_6 t, ?_⟩
  show i ∈ ((View.whole main_v18).slice (win1_6.rect t)).set
  rw [View.set_slice_whole, Rect.mem_set_unit]
  intro a
  match a with
  | ⟨0, _⟩ => show win1_6.index t (0 : Fin 2) * 2000 ≤ (i 0).val ∧ (i 0).val < win1_6.index t (0 : Fin 2) * 2000 + 2000; rw [e0, ht]; omega
  | ⟨1, _⟩ => show win1_6.index t (1 : Fin 2) * 64 ≤ (i 1).val ∧ (i 1).val < win1_6.index t (1 : Fin 2) * 64 + 64; rw [e1]; omega

/-- THE RESULT ARRAY after the call: the layer's formula on the arrays the call was entered with. -/
theorem final (c : Dev nD) : (dat1 V c).arrAt 6 cfg1.N = G V c :=
  (dat1 V c).arrAt_eq_of_cover 6 (G V c) (fun t _ => flushed_eq V c t) (covered)

end Cert.KernelIdeal.Layer1

end
-- ==== Proof.KHost.lean ====
/-
  The host operations of the kernel's program, one stretch at a time: what each buffer the pallas_calls read holds
  once the stretch has run from ANY buffer contents W, as the operations' functions of W's buffers.

  The program is: split the edge list into sources and destinations; look the node indices up in the embedding table
  (a gather of whole rows, with jax's "fill" rule: a row whose index is outside [0, 50000) — after adding 50000 to a
  negative one — is replaced by a constant row); look the sources up in the node features the same way; add each looked-up
  row into its destination's row (a scatter-add into zeros); reshape the two bias vectors to one-row matrices; the first
  pallas_call; and the same again with the first call's result as the node features, before the second call.

  Under the range hypothesis on an index vector — every word a signed integer in [0, 50000) — the "fill" rule replaces
  nothing and the added 50000 is never added: the look-up is the plain gather at the indices themselves.
-/
import proofs.«418175_j48541720379897_1_alg».proof.Proof.Gen.KernelIdeal.Frame
import proofs.«418175_j48541720379897_1_alg».proof.Proof.Spec
import Idealize.ShloMosaic.Lib.StableHlo.Run

noncomputable section

namespace Cert.KernelIdeal.Host

open Cert.KernelIdeal Cert.KernelIdeal.Gen Cert.Gin
open Idealize.ShloMosaic Idealize.ShloMosaic.TcCoe Idealize.SL.Sem Idealize.ShloMosaic.StableHlo

variable {F : FTy → Type} [FloatOps F]

/-! ## The look-ups, as functions of the table and the index vector -/

/-- The node look-up as the program spells it: indices wrapped, rows gathered, out-of-range rows filled. -/
def takeNodes (x : FVec F S50000x128 .f32) (idx : IVec S50000 32) : FVec F S50000x128 .f32 :=
  select
    (broadcastInDim S50000x128 ![0] bcast_S50000_S50000x128_0
      (Host.reduce IntOp.andi
        (andi
          (cmpi .sge
            (broadcastInDim S50000x1 ![0] bcast_S50000_S50000x1_0
              (select (cmpi .slt idx (broadcastInDim S50000 ![] bcast_S_S50000 (constantI S_ 32 0#32)))
                (addi idx (broadcastInDim S50000 ![] bcast_S_S50000 (constantI S_ 32 50000#32))) idx))
            (broadcastInDim S50000x1 ![] bcast_S_S50000x1 (constantI S_ 32 0#32)))
          (cmpi .sle
            (broadcastInDim S50000x1 ![0] bcast_S50000_S50000x1_0
              (select (cmpi .slt idx (broadcastInDim S50000 ![] bcast_S_S50000 (constantI S_ 32 0#32)))
                (addi idx (broadcastInDim S50000 ![] bcast_S_S50000 (constantI S_ 32 50000#32))) idx))
            (broadcastInDim S50000x1 ![0, 1] bcast_S1x1_S50000x1_0_1
              (broadcastInDim S1x1 ![1] bcast_S1_S1x1_1 (constantI S1 32 49999#32)))))
        (constantI S_ 1 1#1) reducesTo_S50000x1_S50000_d1 h_S_))
    (Host.gather gather_S50000x128_S50000x1_S50000x128_1_0_n_n_0_1_1128 x
      (broadcastInDim S50000x1 ![0] bcast_S50000_S50000x1_0
        (select (cmpi .slt idx (broadcastInDim S50000 ![] bcast_S_S50000 (constantI S_ 32 0#32)))
          (addi idx (broadcastInDim S50000 ![] bcast_S_S50000 (constantI S_ 32 50000#32))) idx)))
    (broadcastInDim S50000x128 ![] bcast_S_S50000x128 (constant S_ .f32 0x7FC00000#32))

/-- The edge look-up as the program spells it. -/
def takeEdges (x : FVec F S50000x128 .f32) (idx : IVec S600000 32) : FVec F S600000x128 .f32 :=
  select
    (broadcastInDim S600000x128 ![0] bcast_S600000_S600000x128_0
      (Host.reduce IntOp.andi
        (andi
          (cmpi .sge
            (broadcastInDim S600000x1 ![0] bcast_S600000_S600000x1_0
              (select (cmpi .slt idx (broadcastInDim S600000 ![] bcast_S_S600000 (constantI S_ 32 0#32)))
                (addi idx (broadcastInDim S600000 ![] bcast_S_S600000 (constantI S_ 32 50000#32))) idx))
            (broadcastInDim S600000x1 ![] bcast_S_S600000x1 (constantI S_ 32 0#32)))
          (cmpi .sle
            (broadcastInDim S600000x1 ![0] bcast_S600000_S600000x1_0
              (select (cmpi .slt idx (broadcastInDim S600000 ![] bcast_S_S600000 (constantI S_ 32 0#32)))
                (addi idx (broadcastInDim S600000 ![] bcast_S_S600000 (constantI S_ 32 50000#32))) idx))
            (broadcastInDim S600000x1 ![0, 1] bcast_S1x1_S600000x1_0_1
              (broadcastInDim S1x1 ![1] bcast_S1_S1x1_1 (constantI S1 32 49999#32)))))
        (constantI S_ 1 1#1) reducesTo_S600000x1_S600000_d1 h_S_))
    (Host.gather gather_S50000x128_S600000x1_S600000x128_1_0_n_n_0_1_1128 x
      (broadcastInDim S600000x1 ![0] bcast_S600000_S600000x1_0
        (select (cmpi .slt idx (broadcastInDim S600000 ![] bcast_S_S600000 (constantI S_ 32 0#32)))
          (addi idx (broadcastInDim S600000 ![] bcast_S_S600000 (constantI S_ 32 50000#32))) idx)))
    (broadcastInDim S600000x128 ![] bcast_S_S600000x128 (constant S_ .f32 0x7FC00000#32))

theorem toInt_49999 : (49999#32 : BitVec 32).toInt = 49999 := by decide

/-- With every node index in [0, 50000) the node look-up is the plain gather at the indices. -/
theorem takeNodes_inRange (x : FVec F S50000x128 .f32) (idx : IVec S50000 32)
    (h : ∀ i, (0 : Int) ≤ (idx i).toInt ∧ (idx i).toInt < 50000) :
    takeNodes x idx = Host.gather gather_S50000x128_S50000x1_S50000x128_1_0_n_n_0_1_1128 x
      (broadcastInDim S50000x1 ![0] bcast_S50000_S50000x1_0 idx) := by
  unfold takeNodes
  rw [wrapIdx_of_inRange idx (broadcastInDim S50000 ![] bcast_S_S50000 (constantI S_ 32 0#32)) _ (fun _ => rfl) (fun i => (h i).1)]
  refine select_of_ones _ _ _ fun j => ?_
  refine bcast_forall _ _ _ (fun w => w = 1#1) (fun k => ?_) j
  refine rangeMask_ones _ _ _ _ _ _ 49999#32 (fun i => ?_) (fun _ => rfl) (fun _ => rfl) (fun _ => rfl) k
  refine bcast_forall _ _ idx (fun w => (0 : Int) ≤ w.toInt ∧ w.toInt ≤ (49999#32 : BitVec 32).toInt) (fun k' => ?_) i
  rw [toInt_49999]
  have := h k'
  omega

/-- With every edge source in [0, 50000) the edge look-up is the plain gather at the sources. -/
theorem takeEdges_inRange (x : FVec F S50000x128 .f32) (idx : IVec S600000 32)
    (h : ∀ i, (0 : Int) ≤ (idx i).toInt ∧ (idx i).toInt < 50000) :
    takeEdges x idx = Host.gather gather_S50000x128_S600000x1_S600000x128_1_0_n_n_0_1_1128 x
      (broadcastInDim S600000x1 ![0] bcast_S600000_S600000x1_0 idx) := by
  unfold takeEdges
  rw [wrapIdx_of_inRange idx (broadcastInDim S600000 ![] bcast_S_S600000 (constantI S_ 32 0#32)) _ (fun _ => rfl) (fun i => (h i).1)]
  refine select_of_ones _ _ _ fun j => ?_
  refine bcast_forall _ _ _ (fun w => w = 1#1) (fun k => ?_) j
  refine rangeMask_ones _ _ _ _ _ _ 49999#32 (fun i => ?_) (fun _ => rfl) (fun _ => rfl) (fun _ => rfl) k
  refine bcast_forall _ _ idx (fun w => (0 : Int) ≤ w.toInt ∧ w.toInt ≤ (49999#32 : BitVec 32).toInt) (fun k' => ?_) i
  rw [toInt_49999]
  have := h k'
  omega

/-! ## The edge list's two rows, the scatter-add, the bias rows -/

/-- Row r of the edge list as a vector. -/
abbrev edgeRow0 (ei : IVec S2x600000 32) : IVec S600000 32 :=
  shapeCast S600000 (extractStridedSlice S1x600000 ![0, 0] ei slices_S2x600000_S1x600000_0_0) shapeCasts_S1x600000_S600000
abbrev edgeRow1 (ei : IVec S2x600000 32) : IVec S600000 32 :=
  shapeCast S600000 (extractStridedSlice S1x600000 ![1, 0] ei slices_S2x600000_S1x600000_1_0) shapeCasts_S1x600000_S600000

/-- The looked-up rows added into their destinations' rows, from zeros. -/
abbrev aggregate (dst : IVec S600000 32) (msg : FVec F S600000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) msg

/-! ## The stretches, from any contents W -/

variable (W : Valuation τ sig (Elt F))

/-- Stretch 1: the edge list split; the arguments stay. -/
theorem stretch0 :
    StableHlo.after hostOps0 W (Proc.devRef .tc main_v1) = edgeRow0 (W (Proc.devRef .tc main_arg1))
    ∧ StableHlo.after hostOps0 W (Proc.devRef .tc main_v3) = edgeRow1 (W (Proc.devRef .tc main_arg1))
    ∧ StableHlo.after hostOps0 W (Proc.devRef .tc main_arg0) = W (Proc.devRef .tc main_arg0)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg4) = W (Proc.devRef .tc main_arg4)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7)
    ∧ StableHlo.after hostOps0 W (Proc.devRef .tc main_arg8) = W (Proc.devRef .tc main_arg8)
    ∧ StableHlo.after hostOps0 W (Proc.devRef .tc main_arg9) = W (Proc.devRef .tc main_arg9)
    ∧ StableHlo.after hostOps0 W (Proc.devRef .tc main_arg10) = W (Proc.devRef .tc main_arg10) := by
  refine ⟨?_, ?_, ?_, ?_, ?_, ?_, ?_, ?_, ?_, ?_, ?_, ?_⟩ <;> after_results_simp <;> rfl

set_option maxRecDepth 16384 in
set_option maxHeartbeats 4000000 in
/-- Stretch 2: the node look-up; the edge rows and the later arguments stay. -/
theorem stretch1 :
    StableHlo.after hostOps0_1 W (Proc.devRef .tc main_v4)
      = takeNodes (W (Proc.devRef .tc main_arg2)) (W (Proc.devRef .tc main_arg0))
    ∧ StableHlo.after hostOps0_1 W (Proc.devRef .tc main_v1) = W (Proc.devRef .tc main_v1)
    ∧ StableHlo.after hostOps0_1 W (Proc.devRef .tc main_v3) = W (Proc.devRef .tc main_v3)
    ∧ StableHlo.after hostOps0_1 W (Proc.devRef .tc main_arg3) = W (Proc.devRef .tc main_arg3)
    ∧ StableHlo.after hostOps0_1 W (Proc.devRef .tc main_arg4) = W (Proc.devRef .tc main_arg4)
    ∧ StableHlo.after hostOps0_1 W (Proc.devRef .tc main_arg5) = W (Proc.devRef .tc main_arg5)
    ∧ StableHlo.after hostOps0_1 W (Proc.devRef .tc main_arg6) = W (Proc.devRef .tc main_arg6)
    ∧ StableHlo.after hostOps0_1 W (Proc.devRef .tc main_arg7) = W (Proc.devRef .tc main_arg7)
    ∧ StableHlo.after hostOps0_1 W (Proc.devRef .tc main_arg8) = W (Proc.devRef .tc main_arg8)
    ∧ StableHlo.after hostOps0_1 W (Proc.devRef .tc main_arg9) = W (Proc.devRef .tc main_arg9)
    ∧ StableHlo.after hostOps0_1 W (Proc.devRef .tc main_arg10) = W (Proc.devRef .tc main_arg10) := by
  refine ⟨?_, ?_, ?_, ?_, ?_, ?_, ?_, ?_, ?_, ?_, ?_⟩
  · after_results_simp
    simp only [cast_eq, takeNodes]
  all_goals after_results_simp

set_option maxRecDepth 16384 in
set_option maxHeartbeats 4000000 in
/-- Stretch 3: the first edge look-up. -/
theorem stretch2 :
    StableHlo.after hostOps0_2 W (Proc.devRef .tc main_v5)
      = takeEdges (W (Proc.devRef .tc main_v4)) (W (Proc.devRef .tc main_v1))
    ∧ StableHlo.after hostOps0_2 W (Proc.devRef .tc main_v4) = W (Proc.devRef .tc main_v4)
    ∧ StableHlo.after hostOps0_2 W (Proc.devRef .tc main_v1) = W (Proc.devRef .tc main_v1)
    ∧ StableHlo.after hostOps0_2 W (Proc.devRef .tc main_v3) = W (Proc.devRef .tc main_v3)
    ∧ StableHlo.after hostOps0_2 W (Proc.devRef .tc main_arg3) = W (Proc.devRef .tc main_arg3)
    ∧ StableHlo.after hostOps0_2 W (Proc.devRef .tc main_arg4) = W (Proc.devRef .tc main_arg4)
    ∧ StableHlo.after hostOps0_2 W (Proc.devRef .tc main_arg5) = W (Proc.devRef .tc main_arg5)
    ∧ StableHlo.after hostOps0_2 W (Proc.devRef .tc main_arg6) = W (Proc.devRef .tc main_arg6)
    ∧ StableHlo.after hostOps0_2 W (Proc.devRef .tc main_arg7) = W (Proc.devRef .tc main_arg7)
    ∧ StableHlo.after hostOps0_2 W (Proc.devRef .tc main_arg8) = W (Proc.devRef .tc main_arg8)
    ∧ StableHlo.after hostOps0_2 W (Proc.devRef .tc main_arg9) = W (Proc.devRef .tc main_arg9)
    ∧ StableHlo.after hostOps0_2 W (Proc.devRef .tc main_arg10) = W (Proc.devRef .tc main_arg10) := by
  refine ⟨?_, ?_, ?_, ?_, ?_, ?_, ?_, ?_, ?_, ?_, ?_, ?_⟩
  · after_results_simp
    simp only [cast_eq, takeEdges]
  all_goals after_results_simp

/-- Stretch 4: the first aggregation and the first layer's two bias rows. -/
theorem stretch3 :
    StableHlo.after hostOps0_3 W (Proc.devRef .tc main_v8)
      = aggregate (W (Proc.devRef .tc main_v3)) (W (Proc.devRef .tc main_v5))
    ∧ StableHlo.after hostOps0_3 W (Proc.devRef .tc main_v9) = shapeCast S1x128 (W (Proc.devRef .tc main_arg4)) shapeCasts_S128_S1x128
    ∧ StableHlo.after hostOps0_3 W (Proc.devRef .tc main_v10) = shapeCast S1x128 (W (Proc.devRef .tc main_arg6)) shapeCasts_S128_S1x128
    ∧ StableHlo.after hostOps0_3 W (Proc.devRef .tc main_v4) = W (Proc.devRef .tc main_v4)
    ∧ StableHlo.after hostOps0_3 W (Proc.devRef .tc main_v1) = W (Proc.devRef .tc main_v1)
    ∧ StableHlo.after hostOps0_3 W (Proc.devRef .tc main_v3) = W (Proc.devRef .tc main_v3)
    ∧ StableHlo.after hostOps0_3 W (Proc.devRef .tc main_arg3) = W (Proc.devRef .tc main_arg3)
    ∧ StableHlo.after hostOps0_3 W (Proc.devRef .tc main_arg5) = W (Proc.devRef .tc main_arg5)
    ∧ StableHlo.after hostOps0_3 W (Proc.devRef .tc main_arg7) = W (Proc.devRef .tc main_arg7)
    ∧ StableHlo.after hostOps0_3 W (Proc.devRef .tc main_arg8) = W (Proc.devRef .tc main_arg8)
    ∧ StableHlo.after hostOps0_3 W (Proc.devRef .tc main_arg9) = W (Proc.devRef .tc main_arg9)
    ∧ StableHlo.after hostOps0_3 W (Proc.devRef .tc main_arg10) = W (Proc.devRef .tc main_arg10) := by
  refine ⟨?_, ?_, ?_, ?_, ?_, ?_, ?_, ?_, ?_, ?_, ?_, ?_⟩ <;> after_results_simp <;> rfl

set_option maxRecDepth 16384 in
set_option maxHeartbeats 4000000 in
/-- Stretch 5, after the first call: the second edge look-up, in the first call's result. -/
theorem stretch4 :
    StableHlo.after hostOps1 W (Proc.devRef .tc main_v12)
      = takeEdges (W (Proc.devRef .tc main_v11)) (W (Proc.devRef .tc main_v1))
    ∧ StableHlo.after hostOps1 W (Proc.devRef .tc main_v11) = W (Proc.devRef .tc main_v11)
    ∧ StableHlo.after hostOps1 W (Proc.devRef .tc main_v3) = W (Proc.devRef .tc main_v3)
    ∧ StableHlo.after hostOps1 W (Proc.devRef .tc main_arg7) = W (Proc.devRef .tc main_arg7)
    ∧ StableHlo.after hostOps1 W (Proc.devRef .tc main_arg8) = W (Proc.devRef .tc main_arg8)
    ∧ StableHlo.after hostOps1 W (Proc.devRef .tc main_arg9) = W (Proc.devRef .tc main_arg9)
    ∧ StableHlo.after hostOps1 W (Proc.devRef .tc main_arg10) = W (Proc.devRef .tc main_arg10) := by
  refine ⟨?_, ?_, ?_, ?_, ?_, ?_, ?_⟩
  · after_results_simp
    simp only [cast_eq, takeEdges]
  all_goals after_results_simp

/-- Stretch 6: the second aggregation and the second layer's two bias rows. -/
theorem stretch5 :
    StableHlo.after hostOps1_1 W (Proc.devRef .tc main_v15)
      = aggregate (W (Proc.devRef .tc main_v3)) (W (Proc.devRef .tc main_v12))
    ∧ StableHlo.after hostOps1_1 W (Proc.devRef .tc main_v16) = shapeCast S1x128 (W (Proc.devRef .tc main_arg8)) shapeCasts_S128_S1x128
    ∧ StableHlo.after hostOps1_1 W (Proc.devRef .tc main_v17) = shapeCast S1x64 (W (Proc.devRef .tc main_arg10)) shapeCasts_S64_S1x64
    ∧ StableHlo.after hostOps1_1 W (Proc.devRef .tc main_v11) = W (Proc.devRef .tc main_v11)
    ∧ StableHlo.after hostOps1_1 W (Proc.devRef .tc main_arg7) = W (Proc.devRef .tc main_arg7)
    ∧ StableHlo.after hostOps1_1 W (Proc.devRef .tc main_arg9) = W (Proc.devRef .tc main_arg9) := by
  refine ⟨?_, ?_, ?_, ?_, ?_, ?_⟩ <;> after_results_simp <;> rfl

end Cert.KernelIdeal.Host

end
-- ==== Proof.KValue.lean ====
/-
  What the kernel's program leaves in its result buffer, as one function of the argument arrays.

  The contents of the buffers at each boundary between the program's segments are followed from the launch memory:
  a host stretch changes the buffers it writes to its operations' values and leaves the rest; a pallas_call changes its
  result array to the layer's formula on the arrays it was entered with and leaves the rest. At the last boundary the
  result buffer holds: the second layer of (the scatter-add, by destination, of the rows of the first layer's result
  looked up at the edge sources; the first layer's result), where the first layer's result is the first layer of (the
  same aggregation of the looked-up node features; the looked-up node features).
-/
import proofs.«418175_j48541720379897_1_alg».proof.Proof.KRun
import proofs.«418175_j48541720379897_1_alg».proof.Proof.KRegion0
import proofs.«418175_j48541720379897_1_alg».proof.Proof.KRegion1
import proofs.«418175_j48541720379897_1_alg».proof.Proof.KHost

set_option maxRecDepth 16384

noncomputable section

open Idealize.ShloMosaic Idealize.ShloMosaic.TcCoe Idealize.SL.Sem
open Idealize.ShloMosaic.ValueIdx

namespace Cert.KernelIdeal.Whole

open Cert.KernelIdeal Cert.KernelIdeal.Gen Cert.KernelIdeal.Host Cert.Gin

variable (m : (ℓ : Loc nD τ sig) → Buf (Elt Ideal) ℓ) (ρ : Dev nD → PrngReg)

/-! ## The values, by name -/

/-- The edge sources and destinations. -/
def srcK (c : Dev nD) : IVec S600000 32 := edgeRow0 (m ((c : Thread nD τ).loc main_arg1))
def dstK (c : Dev nD) : IVec S600000 32 := edgeRow1 (m ((c : Thread nD τ).loc main_arg1))
/-- The looked-up node features. -/
def x1K (c : Dev nD) : FVec Ideal S50000x128 .f32 :=
  takeNodes (m ((c : Thread nD τ).loc main_arg2)) (m ((c : Thread nD τ).loc main_arg0))
/-- The first aggregation. -/
def a1K (c : Dev nD) : FVec Ideal S50000x128 .f32 := aggregate (dstK m c) (takeEdges (x1K m c) (srcK m c))
/-- The first layer's result. -/
def x2K (c : Dev nD) : FVec Ideal S50000x128 .f32 :=
  layerArr (fun v => max v 0) (a1K m c) (x1K m c) (m ((c : Thread nD τ).loc main_arg3))
    (fun k => shapeCast S1x128 (m ((c : Thread nD τ).loc main_arg4)) shapeCasts_S128_S1x128 (ix2 (0 : Fin 1) k))
    (m ((c : Thread nD τ).loc main_arg5))
    (fun q => shapeCast S1x128 (m ((c : Thread nD τ).loc main_arg6)) shapeCasts_S128_S1x128 (ix2 (0 : Fin 1) q))
/-- The second aggregation. -/
def a2K (c : Dev nD) : FVec Ideal S50000x128 .f32 := aggregate (dstK m c) (takeEdges (x2K m c) (srcK m c))
/-- The second layer's result: the program's. -/
def outK (c : Dev nD) : FVec Ideal S50000x64 .f32 :=
  layerArr id (a2K m c) (x2K m c) (m ((c : Thread nD τ).loc main_arg7))
    (fun k => shapeCast S1x128 (m ((c : Thread nD τ).loc main_arg8)) shapeCasts_S128_S1x128 (ix2 (0 : Fin 1) k))
    (m ((c : Thread nD τ).loc main_arg9))
    (fun q => shapeCast S1x64 (m ((c : Thread nD τ).loc main_arg10)) shapeCasts_S64_S1x64 (ix2 (0 : Fin 1) q))

/-! ## The boundaries -/

/-- After the first stretch. -/
theorem at1 (c : Dev nD) :
    W1 m ρ c (Proc.devRef .tc main_v1) = srcK m c ∧ W1 m ρ c (Proc.devRef .tc main_v3) = dstK m c
    ∧ W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8)
    ∧ W1 m ρ c (Proc.devRef .tc main_arg9) = m ((c : Thread nD τ).loc main_arg9)
    ∧ W1 m ρ c (Proc.devRef .tc main_arg10) = m ((c : Thread nD τ).loc main_arg10) :=
  stretch0 (W0 m ρ c)

/-- After the node look-up. -/
theorem at2 (c : Dev nD) :
    W2 m ρ c (Proc.devRef .tc main_v4) = x1K m c
    ∧ W2 m ρ c (Proc.devRef .tc main_v1) = srcK m c ∧ W2 m ρ c (Proc.devRef .tc main_v3) = dstK m c
    ∧ W2 m ρ c (Proc.devRef .tc main_arg3) = m ((c : Thread nD τ).loc main_arg3)
    ∧ W2 m ρ c (Proc.devRef .tc main_arg4) = m ((c : Thread nD τ).loc main_arg4)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7)
    ∧ W2 m ρ c (Proc.devRef .tc main_arg8) = m ((c : Thread nD τ).loc main_arg8)
    ∧ W2 m ρ c (Proc.devRef .tc main_arg9) = m ((c : Thread nD τ).loc main_arg9)
    ∧ W2 m ρ c (Proc.devRef .tc main_arg10) = m ((c : Thread nD τ).loc main_arg10) := by
  obtain ⟨p1, p3, q0, q2, q3, q4, q5, q6, q7, q8, q9, q10⟩ := at1 m ρ c
  obtain ⟨s4, s1, s3, t3, t4, t5, t6, t7, t8, t9, t10⟩ := stretch1 (W1 m ρ c)
  refine ⟨s4.trans ?_, s1.trans p1, s3.trans p3, t3.trans q3, t4.trans q4, t5.trans q5, t6.trans q6, t7.trans q7,
    t8.trans q8, t9.trans q9, t10.trans q10⟩
  rw [q2, q0]; rfl

/-- After the first edge look-up. -/
theorem at3 (c : Dev nD) :
    W3 m ρ c (Proc.devRef .tc main_v5) = takeEdges (x1K m c) (srcK m c)
    ∧ W3 m ρ c (Proc.devRef .tc main_v4) = x1K m c
    ∧ W3 m ρ c (Proc.devRef .tc main_v1) = srcK m c ∧ W3 m ρ c (Proc.devRef .tc main_v3) = dstK m c
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7)
    ∧ W3 m ρ c (Proc.devRef .tc main_arg8) = m ((c : Thread nD τ).loc main_arg8)
    ∧ W3 m ρ c (Proc.devRef .tc main_arg9) = m ((c : Thread nD τ).loc main_arg9)
    ∧ W3 m ρ c (Proc.devRef .tc main_arg10) = m ((c : Thread nD τ).loc main_arg10) := by
  obtain ⟨p4, p1, p3, q3, q4, q5, q6, q7, q8, q9, q10⟩ := at2 m ρ c
  obtain ⟨s5, s4, s1, s3, t3, t4, t5, t6, t7, t8, t9, t10⟩ := stretch2 (W2 m ρ c)
  refine ⟨s5.trans ?_, s4.trans p4, s1.trans p1, s3.trans p3, t3.trans q3, t4.trans q4, t5.trans q5, t6.trans q6,
    t7.trans q7, t8.trans q8, t9.trans q9, t10.trans q10⟩
  rw [p4, p1]

/-- At the first call's entry. -/
theorem at4 (c : Dev nD) :
    W4 m ρ c (Proc.devRef .tc main_v8) = a1K m c
    ∧ W4 m ρ c (Proc.devRef .tc main_v9) = shapeCast S1x128 (m ((c : Thread nD τ).loc main_arg4)) shapeCasts_S128_S1x128
    ∧ W4 m ρ c (Proc.devRef .tc main_v10) = shapeCast S1x128 (m ((c : Thread nD τ).loc main_arg6)) shapeCasts_S128_S1x128
    ∧ W4 m ρ c (Proc.devRef .tc main_v4) = x1K m c
    ∧ W4 m ρ c (Proc.devRef .tc main_v1) = srcK m c ∧ W4 m ρ c (Proc.devRef .tc main_v3) = dstK m c
    ∧ W4 m ρ c (Proc.devRef .tc main_arg3) = m ((c : Thread nD τ).loc main_arg3)
    ∧ W4 m ρ c (Proc.devRef .tc main_arg5) = m ((c : Thread nD τ).loc main_arg5)
    ∧ W4 m ρ c (Proc.devRef .tc main_arg7) = m ((c : Thread nD τ).loc main_arg7)
    ∧ W4 m ρ c (Proc.devRef .tc main_arg8) = m ((c : Thread nD τ).loc main_arg8)
    ∧ W4 m ρ c (Proc.devRef .tc main_arg9) = m ((c : Thread nD τ).loc main_arg9)
    ∧ W4 m ρ c (Proc.devRef .tc main_arg10) = m ((c : Thread nD τ).loc main_arg10) := by
  obtain ⟨p5, p4, p1, p3, q3, q4, q5, q6, q7, q8, q9, q10⟩ := at3 m ρ c
  obtain ⟨s8, s9, s10, s4, s1, s3, t3, t5, t7, t8, t9, t10⟩ := stretch3 (W3 m ρ c)
  refine ⟨s8.trans ?_, s9.trans ?_, s10.trans ?_, s4.trans p4, s1.trans p1, s3.trans p3, t3.trans q3, t5.trans q5,
    t7.trans q7, t8.trans q8, t9.trans q9, t10.trans q10⟩
  · rw [p3, p5]; rfl
  · rw [q4]
  · rw [q6]

/-- At the first call's exit: the result array at the first layer's result, the rest as entered. -/
theorem at5 (c : Dev nD) :
    W5 m ρ c (Proc.devRef .tc main_v11) = x2K m c
    ∧ W5 m ρ c (Proc.devRef .tc main_v1) = srcK m c ∧ W5 m ρ c (Proc.devRef .tc main_v3) = dstK m c
    ∧ W5 m ρ c (Proc.devRef .tc main_arg7) = m ((c : Thread nD τ).loc main_arg7)
    ∧ W5 m ρ c (Proc.devRef .tc main_arg8) = m ((c : Thread nD τ).loc main_arg8)
    ∧ W5 m ρ c (Proc.devRef .tc main_arg9) = m ((c : Thread nD τ).loc main_arg9)
    ∧ W5 m ρ c (Proc.devRef .tc main_arg10) = m ((c : Thread nD τ).loc main_arg10) := by
  obtain ⟨p8, p9, p10, p4, p1, p3, q3, q5, q7, q8, q9, q10⟩ := at4 m ρ c
  refine ⟨?_, (W5_of_ne m ρ c main_v1 (by decide)).trans p1, (W5_of_ne m ρ c main_v3 (by decide)).trans p3,
    (W5_of_ne m ρ c main_arg7 (by decide)).trans q7, (W5_of_ne m ρ c main_arg8 (by decide)).trans q8,
    (W5_of_ne m ρ c main_arg9 (by decide)).trans q9, (W5_of_ne m ρ c main_arg10 (by decide)).trans q10⟩
  refine (W5_arr m ρ c 6).trans ((Layer0.final (V4 m ρ) c).trans ?_)
  show layerArr (fun v => max v 0) (W4 m ρ c (Proc.devRef .tc main_v8)) (W4 m ρ c (Proc.devRef .tc main_v4))
      (W4 m ρ c (Proc.devRef .tc main_arg3)) (fun k => W4 m ρ c (Proc.devRef .tc main_v9) (ix2 (0 : Fin 1) k))
      (W4 m ρ c (Proc.devRef .tc main_arg5)) (fun q => W4 m ρ c (Proc.devRef .tc main_v10) (ix2 (0 : Fin 1) q)) = x2K m c
  rw [p8, p4, q3, p9, q5, p10]
  rfl

/-- After the second edge look-up. -/
theorem at6 (c : Dev nD) :
    W6 m ρ c (Proc.devRef .tc main_v12) = takeEdges (x2K m c) (srcK m c)
    ∧ W6 m ρ c (Proc.devRef .tc main_v11) = x2K m c ∧ W6 m ρ c (Proc.devRef .tc main_v3) = dstK m c
    ∧ W6 m ρ c (Proc.devRef .tc main_arg7) = m ((c : Thread nD τ).loc main_arg7)
    ∧ W6 m ρ c (Proc.devRef .tc main_arg8) = m ((c : Thread nD τ).loc main_arg8)
    ∧ W6 m ρ c (Proc.devRef .tc main_arg9) = m ((c : Thread nD τ).loc main_arg9)
    ∧ W6 m ρ c (Proc.devRef .tc main_arg10) = m ((c : Thread nD τ).loc main_arg10) := by
  obtain ⟨p11, p1, p3, q7, q8, q9, q10⟩ := at5 m ρ c
  obtain ⟨s12, s11, s3, t7, t8, t9, t10⟩ := stretch4 (W5 m ρ c)
  refine ⟨s12.trans ?_, s11.trans p11, s3.trans p3, t7.trans q7, t8.trans q8, t9.trans q9, t10.trans q10⟩
  rw [p11, p1]

/-- At the second call's entry. -/
theorem at7 (c : Dev nD) :
    W7 m ρ c (Proc.devRef .tc main_v15) = a2K m c
    ∧ W7 m ρ c (Proc.devRef .tc main_v16) = shapeCast S1x128 (m ((c : Thread nD τ).loc main_arg8)) shapeCasts_S128_S1x128
    ∧ W7 m ρ c (Proc.devRef .tc main_v17) = shapeCast S1x64 (m ((c : Thread nD τ).loc main_arg10)) shapeCasts_S64_S1x64
    ∧ W7 m ρ c (Proc.devRef .tc main_v11) = x2K m c
    ∧ W7 m ρ c (Proc.devRef .tc main_arg7) = m ((c : Thread nD τ).loc main_arg7)
    ∧ W7 m ρ c (Proc.devRef .tc main_arg9) = m ((c : Thread nD τ).loc main_arg9) := by
  obtain ⟨p12, p11, p3, q7, q8, q9, q10⟩ := at6 m ρ c
  obtain ⟨s15, s16, s17, s11, t7, t9⟩ := stretch5 (W6 m ρ c)
  refine ⟨s15.trans ?_, s16.trans ?_, s17.trans ?_, s11.trans p11, t7.trans q7, t9.trans q9⟩
  · rw [p3, p12]; rfl
  · rw [q8]
  · rw [q10]

/-- THE RESULT BUFFER at the last boundary: the program's result as one function of the argument arrays. -/
theorem result_eq (c : Dev nD) : W8 m ρ c (Proc.devRef .tc main_v18) = outK m c := by
  obtain ⟨p15, p16, p17, p11, q7, q9⟩ := at7 m ρ c
  refine (W8_arr m ρ c 6).trans ((Layer1.final (V7 m ρ) c).trans ?_)
  show layerArr id (W7 m ρ c (Proc.devRef .tc main_v15)) (W7 m ρ c (Proc.devRef .tc main_v11))
      (W7 m ρ c (Proc.devRef .tc main_arg7)) (fun k => W7 m ρ c (Proc.devRef .tc main_v16) (ix2 (0 : Fin 1) k))
      (W7 m ρ c (Proc.devRef .tc main_arg9)) (fun q => W7 m ρ c (Proc.devRef .tc main_v17) (ix2 (0 : Fin 1) q)) = outK m c
  rw [p15, p11, q7, p16, q9, p17]
  rfl

/-! ## The result under the range hypotheses: the network's formula -/

/-- The plain look-ups and the aggregation, as the kernel's program spells them. -/
abbrev lookN : FVec Ideal S50000x128 .f32 → IVec S50000 32 → FVec Ideal S50000x128 .f32 := fun x idx =>
  Host.gather gather_S50000x128_S50000x1_S50000x128_1_0_n_n_0_1_1128 x (broadcastInDim S50000x1 ![0] bcast_S50000_S50000x1_0 idx)
abbrev lookE : FVec Ideal S50000x128 .f32 → IVec S600000 32 → FVec Ideal S600000x128 .f32 := fun x idx =>
  Host.gather gather_S50000x128_S600000x1_S600000x128_1_0_n_n_0_1_1128 x (broadcastInDim S600000x1 ![0] bcast_S600000_S600000x1_0 idx)
abbrev aggr : IVec S600000 32 → FVec Ideal S600000x128 .f32 → FVec Ideal S50000x128 .f32 := fun dst msg =>
  aggregate dst msg

/-- With every node index and every edge source in [0, 50000) the program's result is the network's formula over
    the plain look-ups. -/
theorem outK_eq (c : Dev nD)
    (hxi : ∀ i, (0 : Int) ≤ (m ((c : Thread nD τ).loc main_arg0) i).toInt ∧ (m ((c : Thread nD τ).loc main_arg0) i).toInt < 50000)
    (hsrc : ∀ e, (0 : Int) ≤ (srcK m c e).toInt ∧ (srcK m c e).toInt < 50000) :
    outK m c = ginOut lookN lookE aggr (m ((c : Thread nD τ).loc main_arg0)) (srcK m c) (dstK m c)
      (m ((c : Thread nD τ).loc main_arg2)) (m ((c : Thread nD τ).loc main_arg3))
      (fun k => m ((c : Thread nD τ).loc main_arg4) (ix1 k)) (m ((c : Thread nD τ).loc main_arg5))
      (fun q => m ((c : Thread nD τ).loc main_arg6) (ix1 q)) (m ((c : Thread nD τ).loc main_arg7))
      (fun k => m ((c : Thread nD τ).loc main_arg8) (ix1 k)) (m ((c : Thread nD τ).loc main_arg9))
      (fun q => m ((c : Thread nD τ).loc main_arg10) (ix1 q)) := by
  have h1 : x1K m c = lookN (m ((c : Thread nD τ).loc main_arg2)) (m ((c : Thread nD τ).loc main_arg0)) :=
    takeNodes_inRange _ _ hxi
  have h2 : a1K m c = aggr (dstK m c) (lookE (x1K m c) (srcK m c)) := by
    unfold a1K; rw [takeEdges_inRange _ _ hsrc]
  have h3 : a2K m c = aggr (dstK m c) (lookE (x2K m c) (srcK m c)) := by
    unfold a2K; rw [takeEdges_inRange _ _ hsrc]
  have b4 : (fun k : Fin 128 => shapeCast S1x128 (m ((c : Thread nD τ).loc main_arg4)) shapeCasts_S128_S1x128 (ix2 (0 : Fin 1) k))
      = fun k => m ((c : Thread nD τ).loc main_arg4) (ix1 k) := funext fun k => rowOf_apply _ _ k
  have b6 : (fun k : Fin 128 => shapeCast S1x128 (m ((c : Thread nD τ).loc main_arg6)) shapeCasts_S128_S1x128 (ix2 (0 : Fin 1) k))
      = fun k => m ((c : Thread nD τ).loc main_arg6) (ix1 k) := funext fun k => rowOf_apply _ _ k
  have b8 : (fun k : Fin 128 => shapeCast S1x128 (m ((c : Thread nD τ).loc main_arg8)) shapeCasts_S128_S1x128 (ix2 (0 : Fin 1) k))
      = fun k => m ((c : Thread nD τ).loc main_arg8) (ix1 k) := funext fun k => rowOf_apply _ _ k
  have b10 : (fun k : Fin 64 => shapeCast S1x64 (m ((c : Thread nD τ).loc main_arg10)) shapeCasts_S64_S1x64 (ix2 (0 : Fin 1) k))
      = fun k => m ((c : Thread nD τ).loc main_arg10) (ix1 k) := funext fun k => rowOf_apply _ _ k
  have h4 : x2K m c = layerArr (fun v => max v 0) (aggr (dstK m c) (lookE (x1K m c) (srcK m c))) (x1K m c)
      (m ((c : Thread nD τ).loc main_arg3)) (fun k => m ((c : Thread nD τ).loc main_arg4) (ix1 k))
      (m ((c : Thread nD τ).loc main_arg5)) (fun q => m ((c : Thread nD τ).loc main_arg6) (ix1 q)) := by
    unfold x2K; rw [h2, b4, b6]
  unfold outK ginOut
  rw [h3, b8, b10, h4, h1]

/-- The run of the kernel's program, its result named. -/
theorem run : θ_run defs (onTc (τ := τ) (main (F := Ideal))) ⟨m, fun _ => 0, ρ⟩ (fun r => ∀ c : Dev nD,
      r.2.mem ((c.tc : Thread nD τ).loc main_v18) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.Run.run_main m ρ)

end Cert.KernelIdeal.Whole

end
-- ==== Proof.RefValue.lean ====
/-
  The reference program, read as two applications of the layer's formula.

  The reference adds the aggregated and the node features, multiplies by the first weight matrix, adds the first bias
  along every row, rectifies, multiplies by the second weight matrix and adds the second bias; after the first layer it
  rectifies once more. Entry by entry that is the layer's formula: a product of an [n,128] by a [128,c] matrix at
  (r, q) is the sum over k of left (r, k) · right (k, q), and a bias vector laid along every row reads its entry q.
  What goes into each layer — the scatter-add of gathered rows, the gathered node features — stays a named stage here.
-/
import proofs.«418175_j48541720379897_1_alg».proof.Proof.Gen.ReferenceIdeal.Read
import proofs.«418175_j48541720379897_1_alg».proof.Proof.Spec

noncomputable section

open scoped BigOperators

namespace Cert.ReferenceIdeal.Hand

open Cert.ReferenceIdeal Cert.ReferenceIdeal.Gen Cert.ReferenceIdeal.Read Cert.Gin
open Idealize.ShloMosaic Idealize.ShloMosaic.ValueIdx

/-- The first layer with its closing rectifier: the stage after it is the layer's formula on the stage of the
    aggregation and the stage of the looked-up node features. -/
theorem layer1_eq (x0 : (⟨S50000, .i32⟩ : BufTy).Contents (Elt Ideal)) (x1 : (⟨S2x600000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v31 (F := Ideal) x0 x1 x2 x3 x4 x5 x6
      = layerArr (fun v => max v 0) (val_main_v20 (F := Ideal) x0 x1 x2) (val_main_v6 (F := Ideal) x0 x2) x3
          (fun k => x4 (ix1 k)) x5 (fun q => x6 (ix1 q)) := by
  funext j
  obtain ⟨r, q, rfl⟩ : ∃ (r : Fin 50000) (q : Fin 128), j = ix2 r q := ⟨j 0, j 1, eq_ix2 j⟩
  rw [layerArr_apply, val_main_v31_apply, val_main_v30_apply, val_main_v27_apply, val_main_v29_apply, val_main_v28_apply,
    val_main_call1_v0_apply, val_main_call1_cst_apply]
  show max ((∑ k : Fin 128, _) + _) (Ideal.ofBits .f32 0x00000000#32) = _
  rw [Ideal.ofBits_zero_f32]
  have hb : idx_main_v28 (idx_main_v29 (ix2 r q)) = ix1 q := funext fun a => Fin.ext (by match a with | ⟨0, _⟩ => rfl)
  rw [hb]
  refine congrArg (fun s => max (s + x6 (ix1 q)) 0) (Finset.sum_congr rfl fun k _ => ?_)
  have hl : lidx_main_v27 (ix2 r q) k = ix2 r k := funext fun a => Fin.ext (by match a with | ⟨0, _⟩ => rfl | ⟨1, _⟩ => rfl)
  have hr : ridx_main_v27 (ix2 r q) k = ix2 k q := funext fun a => Fin.ext (by match a with | ⟨0, _⟩ => rfl | ⟨1, _⟩ => rfl)
  rw [hl, hr]
  refine congrArg (· * x5 (ix2 k q)) ?_
  rw [val_main_v26_apply, val_main_v25_apply, val_main_v22_apply, val_main_v24_apply, val_main_v23_apply,
    val_main_call0_v0_apply, val_main_call0_cst_apply]
  unfold hiddenAt
  show max ((∑ l : Fin 128, _) + _) (Ideal.ofBits .f32 0x00000000#32) = _
  rw [Ideal.ofBits_zero_f32]
  have hb' : idx_main_v23 (idx_main_v24 (ix2 r k)) = ix1 k := funext fun a => Fin.ext (by match a with | ⟨0, _⟩ => rfl)
  rw [hb']
  refine congrArg (fun s => max (s + x4 (ix1 k)) 0) (Finset.sum_congr rfl fun l _ => ?_)
  have hl' : lidx_main_v22 (ix2 r k) l = ix2 r l := funext fun a => Fin.ext (by match a with | ⟨0, _⟩ => rfl | ⟨1, _⟩ => rfl)
  have hr' : ridx_main_v22 (ix2 r k) l = ix2 l k := funext fun a => Fin.ext (by match a with | ⟨0, _⟩ => rfl | ⟨1, _⟩ => rfl)
  rw [hl', hr', val_main_v21_apply]
  rfl

/-- The second layer, no closing rectifier: the program's result stage is the layer's formula on the stage of the
    second aggregation and the stage of the first layer's result. -/
theorem layer2_eq (x0 : (⟨S50000, .i32⟩ : BufTy).Contents (Elt Ideal)) (x1 : (⟨S2x600000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) :
    val_main_v55 (F := Ideal) x0 x1 x2 x3 x4 x5 x6 x7 x8 x9 x10
      = layerArr id (val_main_v45 (F := Ideal) x0 x1 x2 x3 x4 x5 x6) (val_main_v31 (F := Ideal) x0 x1 x2 x3 x4 x5 x6) x7
          (fun k => x8 (ix1 k)) x9 (fun q => x10 (ix1 q)) := by
  funext j
  obtain ⟨r, q, rfl⟩ : ∃ (r : Fin 50000) (q : Fin 64), j = ix2 r q := ⟨j 0, j 1, eq_ix2 j⟩
  rw [layerArr_apply, val_main_v55_apply, val_main_v52_apply, val_main_v54_apply, val_main_v53_apply]
  show (∑ k : Fin 128, _) + _ = (∑ k : Fin 128, _) + _
  have hb : idx_main_v53 (idx_main_v54 (ix2 r q)) = ix1 q := funext fun a => Fin.ext (by match a with | ⟨0, _⟩ => rfl)
  rw [hb]
  refine congrArg (· + x10 (ix1 q)) (Finset.sum_congr rfl fun k _ => ?_)
  have hl : lidx_main_v52 (ix2 r q) k = ix2 r k := funext fun a => Fin.ext (by match a with | ⟨0, _⟩ => rfl | ⟨1, _⟩ => rfl)
  have hr : ridx_main_v52 (ix2 r q) k = ix2 k q := funext fun a => Fin.ext (by match a with | ⟨0, _⟩ => rfl | ⟨1, _⟩ => rfl)
  rw [hl, hr]
  refine congrArg (· * x9 (ix2 k q)) ?_
  rw [val_main_v51_apply, val_main_v50_apply, val_main_v47_apply, val_main_v49_apply, val_main_v48_apply,
    val_main_call2_v0_apply, val_main_call2_cst_apply]
  unfold hiddenAt
  show max ((∑ l : Fin 128, _) + _) (Ideal.ofBits .f32 0x00000000#32) = _
  rw [Ideal.ofBits_zero_f32]
  have hb' : idx_main_v48 (idx_main_v49 (ix2 r k)) = ix1 k := funext fun a => Fin.ext (by match a with | ⟨0, _⟩ => rfl)
  rw [hb']
  refine congrArg (fun s => max (s + x8 (ix1 k)) 0) (Finset.sum_congr rfl fun l _ => ?_)
  have hl' : lidx_main_v47 (ix2 r k) l = ix2 r l := funext fun a => Fin.ext (by match a with | ⟨0, _⟩ => rfl | ⟨1, _⟩ => rfl)
  have hr' : ridx_main_v47 (ix2 r k) l = ix2 l k := funext fun a => Fin.ext (by match a with | ⟨0, _⟩ => rfl | ⟨1, _⟩ => rfl)
  rw [hl', hr', val_main_v46_apply]
  rfl

end Cert.ReferenceIdeal.Hand

end
-- ==== Proof.RefGin.lean ====
/-
  The reference program's result as the network's formula over the plain look-ups.

  The reference looks rows up by a gather at the indices after "add 50000 where negative"; for indices in [0, 50000)
  nothing is added. It then aggregates by a scatter-add into zeros and applies the layer, twice.
-/
import proofs.«418175_j48541720379897_1_alg».proof.Proof.RefValue

noncomputable section

namespace Cert.ReferenceIdeal.Hand

open Cert.ReferenceIdeal Cert.ReferenceIdeal.Gen Cert.ReferenceIdeal.Read Cert.Gin
open Idealize.ShloMosaic Idealize.ShloMosaic.ValueIdx

/-- The plain look-ups and the aggregation, as the reference spells them. -/
abbrev lookN : FVec Ideal S50000x128 .f32 → IVec S50000 32 → FVec Ideal S50000x128 .f32 := fun x idx =>
  Host.gather gather_S50000x128_S50000x1_S50000x128_1_0_n_n_0_1_1128 x (broadcastInDim S50000x1 ![0] bcast_S50000_S50000x1_0 idx)
abbrev lookE : FVec Ideal S50000x128 .f32 → IVec S600000 32 → FVec Ideal S600000x128 .f32 := fun x idx =>
  Host.gather gather_S50000x128_S600000x1_S600000x128_1_0_n_n_0_1_1128 x (broadcastInDim S600000x1 ![0] bcast_S600000_S600000x1_0 idx)
abbrev aggr : IVec S600000 32 → FVec Ideal S600000x128 .f32 → FVec Ideal S50000x128 .f32 := fun dst msg =>
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) msg

/-- The edge sources and destinations: rows 0 and 1 of the edge list. -/
abbrev srcR (x1 : IVec S2x600000 32) : IVec S600000 32 :=
  shapeCast S600000 (extractStridedSlice S1x600000 ![0, 0] x1 slices_S2x600000_S1x600000_0_0) shapeCasts_S1x600000_S600000
abbrev dstR (x1 : IVec S2x600000 32) : IVec S600000 32 :=
  shapeCast S600000 (extractStridedSlice S1x600000 ![1, 0] x1 slices_S2x600000_S1x600000_1_0) shapeCasts_S1x600000_S600000

/-- With every node index and every edge source in [0, 50000) the reference's result stage is the network's formula. -/
theorem result_eq (x0 : (⟨S50000, .i32⟩ : BufTy).Contents (Elt Ideal)) (x1 : (⟨S2x600000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))
    (hxi : ∀ i, (0 : Int) ≤ (x0 i).toInt ∧ (x0 i).toInt < 50000)
    (hsrc : ∀ e, (0 : Int) ≤ (srcR x1 e).toInt ∧ (srcR x1 e).toInt < 50000) :
    val_main_v55 (F := Ideal) x0 x1 x2 x3 x4 x5 x6 x7 x8 x9 x10
      = ginOut lookN lookE aggr x0 (srcR x1) (dstR x1) x2 x3 (fun k => x4 (ix1 k)) x5 (fun q => x6 (ix1 q)) x7
          (fun k => x8 (ix1 k)) x9 (fun q => x10 (ix1 q)) := by
  have w0 : val_main_v4 (F := Ideal) x0 = x0 :=
    wrapIdx_of_inRange x0 (val_main_v0 (F := Ideal)) (val_main_v2 (F := Ideal)) (fun _ => rfl) (fun i => (hxi i).1)
  have w1 : val_main_v13 (F := Ideal) x1 = srcR x1 :=
    wrapIdx_of_inRange (srcR x1) (val_main_v9 (F := Ideal)) (val_main_v11 (F := Ideal)) (fun _ => rfl) (fun i => (hsrc i).1)
  have w2 : val_main_v38 (F := Ideal) x1 = srcR x1 :=
    wrapIdx_of_inRange (srcR x1) (val_main_v34 (F := Ideal)) (val_main_v36 (F := Ideal)) (fun _ => rfl) (fun i => (hsrc i).1)
  have h1 : val_main_v6 (F := Ideal) x0 x2 = lookN x2 x0 := by
    unfold val_main_v6 val_main_v5; rw [w0]
  have h2 : val_main_v20 (F := Ideal) x0 x1 x2 = aggr (dstR x1) (lookE (val_main_v6 (F := Ideal) x0 x2) (srcR x1)) := by
    unfold val_main_v20 val_main_v15 val_main_v14; rw [w1]; rfl
  have h3 : val_main_v45 (F := Ideal) x0 x1 x2 x3 x4 x5 x6
      = aggr (dstR x1) (lookE (val_main_v31 (F := Ideal) x0 x1 x2 x3 x4 x5 x6) (srcR x1)) := by
    unfold val_main_v45 val_main_v40 val_main_v39; rw [w2]; rfl
  rw [layer2_eq, h3, layer1_eq, h2, h1]
  rfl

end Cert.ReferenceIdeal.Hand

end
-- ==== Proof.PreDecode.lean ====
/-
  What the precondition says of the two index inputs.

  The precondition is one conjunction: nine "every entry is finite" tests of the float inputs, then "every node index
  is in [0, 50000)", then "every edge source (row 0 of the edge list) is in [0, 50000)". Read back here are the last
  two: a conjunction that is 1 has both conjuncts 1, an "all" that is 1 has every entry 1, and a signed comparison
  word that is 1 says the comparison of the two words read as integers.
-/
import proofs.«418175_j48541720379897_1_alg».proof.Pre_finite_inputs
import Idealize.ShloMosaic.Lib.ReduceAll
import Idealize.ShloMosaic.Lib.Affine
import Idealize.ShloMosaic.Lib.ValueIdx

noncomputable section

namespace Cert.Pre_finite_inputs.Decode

open Idealize.ShloMosaic Idealize.ShloMosaic.ValueIdx Cert.Pre_finite_inputs

variable [hF : Cert.Pre_finite_inputs.Facts] {F : FTy → Type} [FloatOps F]

open Cert.Pre_finite_inputs.Facts

instance : Subsingleton S_.Idx := ⟨fun _ _ => funext fun d => d.elim0⟩

/-- The edge sources: row 0 of the edge list, as a vector of 600000 words. -/
abbrev src (a1 : IVec S2x600000 32) : IVec S600000 32 :=
  shapeCast S600000 ((extractStridedSlice S1x600000 ![0, 0] · slices_S2x600000_S1x600000_0_0) a1) shapeCasts_S1x600000_S600000

/-- Under the precondition every node index and every edge source is a signed word in [0, 50000). -/
theorem ranges (a0 : IVec S50000 32) (a1 : IVec S2x600000 32) (a2 : FVec F S50000x128 .f32) (a3 : FVec F S128x128 .f32)
    (a4 : FVec F S128 .f32) (a5 : FVec F S128x128 .f32) (a6 : FVec F S128 .f32) (a7 : FVec F S128x128 .f32)
    (a8 : FVec F S128 .f32) (a9 : FVec F S128x64 .f32) (a10 : FVec F S64 .f32)
    (h : fn (F := F) a0 a1 a2 a3 a4 a5 a6 a7 a8 a9 a10 = fun _ => 1#1) :
    (∀ i : S50000.Idx, (0 : Int) ≤ (a0 i).toInt ∧ (a0 i).toInt < 50000)
      ∧ (∀ e : S600000.Idx, (0 : Int) ≤ (src a1 e).toInt ∧ (src a1 e).toInt < 50000) := by
  have h0 := congrFun h ix0
  dsimp only [fn, fn_part1, fn_part2, fn_part3] at h0
  obtain ⟨h50, h60⟩ := IntOp.andi_eq_one.1 h0
  obtain ⟨-, h49⟩ := IntOp.andi_eq_one.1 h50
  refine ⟨fun i => ?_, fun e => ?_⟩
  · have hi := Host.reduce_andi_all _ _ _ _ ix0 h49 i
    obtain ⟨hge, hlt⟩ := IntOp.andi_eq_one.1 hi
    exact ⟨IntOp.cmpi_sge.1 hge, IntOp.cmpi_slt.1 hlt⟩
  · have he := Host.reduce_andi_all _ _ _ _ ix0 h60 e
    obtain ⟨hge, hlt⟩ := IntOp.andi_eq_one.1 he
    exact ⟨IntOp.cmpi_sge.1 hge, IntOp.cmpi_slt.1 hlt⟩

end Cert.Pre_finite_inputs.Decode

end
-- ==== Proof.lean ====
/-
  A two-layer graph isomorphism network — an embedding look-up, then twice "add every node's in-neighbours' features,
  apply a two-layer perceptron" — computed by a program with two Pallas TPU calls, against its jnp reference, over the
  extended reals.

  Both programs gather the node features by index, gather them again at each edge's source, and scatter-add the rows
  into each edge's destination. They differ in two places. The kernel's program looks rows up with jax's "fill" rule
  (a row whose index falls outside the table is replaced by a constant row), the reference with the clamping rule;
  inside the stated domain — every node index and every edge source in [0, 50000) — both rules read the row at the
  index itself. And the kernel's program computes each layer's perceptron in 25 blocks of 2000 nodes, each block by two
  matrix products accumulated into zero with the operands narrowed to a shorter float format first, where the reference
  multiplies whole matrices; on the extended reals a change of format is the identity, a product accumulated into zero is
  the plain sum of products, and an output row reads only its own input row, so the 25 blocks are the 25 row-blocks of
  the whole-matrix result. No algebraic law beyond that is needed: both sides are the same arrangement of sums, and the
  finiteness of the float inputs is not used.

  The frames of the two kernel programs are the generated ones; the reference's frame is its generated run with the
  result dropped; the idealization rewrote nothing, so there is nothing to preserve.
-/
import proofs.«418175_j48541720379897_1_alg».proof.Defs
import proofs.«418175_j48541720379897_1_alg».proof.Proof.Gen.Kernel
import proofs.«418175_j48541720379897_1_alg».proof.Proof.Gen.Kernel.Skeleton
import proofs.«418175_j48541720379897_1_alg».proof.Proof.Gen.Kernel.Launch
import proofs.«418175_j48541720379897_1_alg».proof.Proof.Gen.Kernel.Points
import proofs.«418175_j48541720379897_1_alg».proof.Proof.Gen.Kernel.Frame
import proofs.«418175_j48541720379897_1_alg».proof.Proof.Gen.KernelIdeal
import proofs.«418175_j48541720379897_1_alg».proof.Proof.Gen.KernelIdeal.Skeleton
import proofs.«418175_j48541720379897_1_alg».proof.Proof.Gen.KernelIdeal.Launch
import proofs.«418175_j48541720379897_1_alg».proof.Proof.Gen.KernelIdeal.Points
import proofs.«418175_j48541720379897_1_alg».proof.Proof.Gen.KernelIdeal.Frame
import proofs.«418175_j48541720379897_1_alg».proof.Proof.Gen.ReferenceIdeal
import proofs.«418175_j48541720379897_1_alg».proof.Proof.Gen.Pre_finite_inputs
import proofs.«418175_j48541720379897_1_alg».proof.Proof.Gen.ReferenceIdeal.Run
import proofs.«418175_j48541720379897_1_alg».proof.Proof.Gen.ReferenceIdeal.Read
import proofs.«418175_j48541720379897_1_alg».proof.Proof.KValue
import proofs.«418175_j48541720379897_1_alg».proof.Proof.RefGin
import proofs.«418175_j48541720379897_1_alg».proof.Proof.PreDecode
import Idealize.ShloMosaic.Adequacy
import Idealize.ShloMosaic.Init

set_option maxRecDepth 16384

noncomputable section

namespace Cert.Proof

open Idealize.ShloMosaic Idealize.SL.Sem

/-- The two programs' look-ups and aggregations are the same functions: the same gather and scatter-add at the same
    dimension numbers, after the same broadcast of the index vector. -/
theorem parts_eq : (Cert.ReferenceIdeal.Hand.lookN = Cert.KernelIdeal.Whole.lookN)
    ∧ (Cert.ReferenceIdeal.Hand.lookE = Cert.KernelIdeal.Whole.lookE)
    ∧ (Cert.ReferenceIdeal.Hand.aggr = Cert.KernelIdeal.Whole.aggr) := ⟨rfl, rfl, rfl⟩

/-- From memories that agree on the arguments, under the precondition, both programs end with the network's formula
    of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Whole.outK m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hxi, hsrc⟩ := Cert.Pre_finite_inputs.Decode.ranges (hF := Cert.Pre_finite_inputs.Gen.facts) (F := Ideal)
    _ _ _ _ _ _ _ _ _ _ _ (hpre c)
  obtain ⟨e0, e1, e2, e3, e4, e5, e6, e7, e8, e9, e10⟩ := hagree c
  show _ = Cert.KernelIdeal.Whole.outK m c
  rw [Cert.ReferenceIdeal.Read.val_main_v55_eq, e0, e1, e2, e3, e4, e5, e6, e7, e8, e9, e10,
    Cert.ReferenceIdeal.Hand.result_eq _ _ _ _ _ _ _ _ _ _ _ hxi hsrc,
    Cert.KernelIdeal.Whole.outK_eq m c hxi hsrc, parts_eq.1, parts_eq.2.1, parts_eq.2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
